-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x8192 : Shape := ⟨2, ![2048, 8192]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S2048x8192 .f32) (main_arg6 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S2048x8192 .f32 := Host.absf main_arg5
  let main_cst_8 : FVec F S_ .f32 := constant S_ .f32 0x7F800000#32
  let main_v25 : FVec F S2048x8192 .f32 := broadcastInDim S2048x8192 ![] bcast_S_S2048x8192 main_cst_8
  let main_v26 : IVec S2048x8192 1 := cmpf .olt main_v24 main_v25
  let main_c_9 : IVec S_ 1 := constantI S_ 1 1#1
  let main_v27 : IVec S_ 1 := (fun x v => Host.reduce IntOp.andi x v reducesTo_S2048x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S8192x2048 .f32) (main_arg1 : FVec F S8192x2048 .f32) (main_arg2 : FVec F S8192x2048 .f32) (main_arg3 : FVec F S2048x8192 .f32) (main_arg4 : FVec F S8192 .f32) (main_arg5 : FVec F S2048x8192 .f32) (main_arg6 : FVec F S8192 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_v13 main_v16
-- ==== Kernel.lean ====
abbrev S8192x2048 : Shape := ⟨2, ![8192, 2048]⟩
abbrev S2048x8192 : Shape := ⟨2, ![2048, 8192]⟩
abbrev S8192 : Shape := ⟨1, ![8192]⟩
abbrev S2048x2048 : Shape := ⟨2, ![2048, 2048]⟩
abbrev S1x8192 : Shape := ⟨2, ![1, 8192]⟩
abbrev S1x2048 : Shape := ⟨2, ![1, 2048]⟩
abbrev S512x512 : Shape := ⟨2, ![512, 512]⟩
abbrev S512x256 : Shape := ⟨2, ![512, 256]⟩
abbrev S1x256 : Shape := ⟨2, ![1, 256]⟩

abbrev nBuf : Space → Nat
  | .hbm => 27
  | .vmem => 46
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S2048x8192, .f32⟩
  | .hbm, ⟨6, _⟩ => ⟨S8192, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S1x8192, .f32⟩
  | .hbm, ⟨16, _⟩ => ⟨S1x8192, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S512x256, .f32⟩
  | .local _ .vmem, ⟨39, _⟩ => ⟨S512x256, .f32⟩
  | .local _ .vmem, ⟨40, _⟩ => ⟨S512x256, .f32⟩
  | .local _ .vmem, ⟨41, _⟩ => ⟨S512x256, .f32⟩
  | .local _ .vmem, ⟨42, _⟩ => ⟨S512x256, .f32⟩
  | .local _ .vmem, ⟨43, _⟩ => ⟨S512x256, .f32⟩
  | .local _ .vmem, ⟨44, _⟩ => ⟨S512x256, .f32⟩
  | .local _ .vmem, ⟨45, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v63 : BitVec 1 := Scalar.cmpi .eq arg2 c3_i32
  let v64 : BitVec 32 := Scalar.extui v63
  let c0_i32_43 : BitVec 32 := 0#32
  let v65 : BitVec 1 := Scalar.cmpi .ne v64 c0_i32_43
  v65

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true, false]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true, false]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true, false]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, false]

abbrev stage0_20 : Fin 2 → Memref sig .tc .vmem S512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, false]

class Facts₀ : Prop where
  slices_S2048x8192_S2048x2048_0_0 : S2048x8192.Slices ![0, 0] S2048x2048
  slices_S2048x8192_S2048x2048_0_2048 : S2048x8192.Slices ![0, 2048] S2048x2048
  slices_S2048x8192_S2048x2048_0_4096 : S2048x8192.Slices ![0, 4096] S2048x2048
  slices_S2048x8192_S2048x2048_0_6144 : S2048x8192.Slices ![0, 6144] S2048x2048
  shapeCasts_S8192_S1x8192 : S8192.ShapeCasts S1x8192
  slices_S1x8192_S1x2048_0_0 : S1x8192.Slices ![0, 0] S1x2048
  slices_S1x8192_S1x2048_0_2048 : S1x8192.Slices ![0, 2048] S1x2048
  slices_S1x8192_S1x2048_0_4096 : S1x8192.Slices ![0, 4096] S1x2048
  slices_S1x8192_S1x2048_0_6144 : S1x8192.Slices ![0, 6144] S1x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x2048.size a
  hwx0_0 : ∀ i : grid0.Coords, EltTy.bits .f32 = 32 ∨ (Rect.block (s := S8192x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x2048.size a
  hwx0_1 : ∀ i : grid0.Coords, EltTy.bits .f32 = 32 ∨ (Rect.block (s := S8192x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x2048.size a
  hwx0_2 : ∀ i : grid0.Coords, EltTy.bits .f32 = 32 ∨ (Rect.block (s := S8192x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x2048.size a
  hwx0_3 : ∀ i : grid0.Coords, EltTy.bits .f32 = 32 ∨ (Rect.block (s := S2048x2048) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x2048.size a
  hwx0_4 : ∀ i : grid0.Coords, EltTy.bits .f32 = 32 ∨ (Rect.block (s := S2048x2048) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S2048x2048.size a
  hwx0_5 : ∀ i : grid0.Coords, EltTy.bits .f32 = 32 ∨ (Rect.block (s := S2048x2048) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S2048x2048.size a
  hwx0_6 : ∀ i : grid0.Coords, EltTy.bits .f32 = 32 ∨ (Rect.block (s := S2048x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S2048x2048.size a
  hwx0_7 : ∀ i : grid0.Coords, EltTy.bits .f32 = 32 ∨ (Rect.block (s := S2048x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S2048x2048.size a
  hwx0_8 : ∀ i : grid0.Coords, EltTy.bits .f32 = 32 ∨ (Rect.block (s := S2048x2048) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S2048x2048.size a
  hwx0_9 : ∀ i : grid0.Coords, EltTy.bits .f32 = 32 ∨ (Rect.block (s := S2048x2048) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S2048x2048.size a
  hwx0_10 : ∀ i : grid0.Coords, EltTy.bits .f32 = 32 ∨ (Rect.block (s := S2048x2048) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x2048.size a
  hwx0_15 : ∀ i : grid0.Coords, EltTy.bits .f32 = 32 ∨ (Rect.block (s := S1x2048) S1x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x2048.size a
  hwx0_16 : ∀ i : grid0.Coords, EltTy.bits .f32 = 32 ∨ (Rect.block (s := S1x2048) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x2048.size a
  hwx0_17 : ∀ i : grid0.Coords, EltTy.bits .f32 = 32 ∨ (Rect.block (s := S1x2048) S1x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x2048.size a
  hwx0_18 : ∀ i : grid0.Coords, EltTy.bits .f32 = 32 ∨ (Rect.block (s := S1x2048) S1x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x256.size a ≤ S8192x2048.size a
  hwx0_19 : ∀ i : grid0.Coords, EltTy.bits .f32 = 32 ∨ (Rect.block (s := S8192x2048) S512x256.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x256.size a ≤ S8192x2048.size a
  hwx0_20 : ∀ i : grid0.Coords, EltTy.bits .f32 = 32 ∨ (Rect.block (s := S8192x2048) S512x256.size (cc0_transform_20 i) (hinb0_20 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S512x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6) S512x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7) S512x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14) S1x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1x256.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v16) S1x256.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v17) S1x256.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v18_0) S512x256.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v18_1) S512x256.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev idle0 : Fin 21 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun i => !(k0_cond2 i == 1#1) | 20 => fun i => !(k0_cond2 i == 1#1) | ⟨_ + 21, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x8192 : Shape := ⟨2, ![2048, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S2048x8192, .f32⟩
  | .hbm, ⟨6, _⟩ => ⟨S8192, .f32⟩
  | .hbm, ⟨7, _⟩ => ⟨S8192x8192, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.Pieces.lean ====
/-
  What each control case of the body leaves behind, as the body's own arithmetic.

  At the first stretch of a tile (case A) each of the four accumulators is zeroed and then takes one accumulation step,
  so it ends at the step applied to zero. At a middle stretch (case B) and at the last (case C) it takes the step from
  what the point before left. At the last stretch the body also reads the four accumulators back, adds the bias rows,
  applies the gates and stores the new hidden state and the new cell state into the two output blocks.
-/
import proofs.«158810_j39350490366667_1_alg».proof.Proof.KernelIdealP.Frame
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.GenP Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x256 .f32) (harg5 : arg5.IsWhole) (arg6 : Memref sig .tc .vmem S512x256 .f32) (harg6 : arg6.IsWhole)
  (arg7 : Memref sig .tc .vmem S512x256 .f32) (harg7 : arg7.IsWhole) (arg8 : Memref sig .tc .vmem S512x256 .f32) (harg8 : arg8.IsWhole)
  (arg9 : Memref sig .tc .vmem S512x256 .f32) (harg9 : arg9.IsWhole) (arg10 : Memref sig .tc .vmem S512x256 .f32) (harg10 : arg10.IsWhole)
  (arg11 : Memref sig .tc .vmem S512x256 .f32) (harg11 : arg11.IsWhole) (arg12 : Memref sig .tc .vmem S512x256 .f32) (harg12 : arg12.IsWhole)
  (arg13 : Memref sig .tc .vmem S512x256 .f32) (harg13 : arg13.IsWhole) (arg14 : Memref sig .tc .vmem S1x256 .f32) (harg14 : arg14.IsWhole)
  (arg15 : Memref sig .tc .vmem S1x256 .f32) (harg15 : arg15.IsWhole) (arg16 : Memref sig .tc .vmem S1x256 .f32) (harg16 : arg16.IsWhole)
  (arg17 : Memref sig .tc .vmem S1x256 .f32) (harg17 : arg17.IsWhole) (arg18 : Memref sig .tc .vmem S1x256 .f32) (harg18 : arg18.IsWhole)
  (arg19 : Memref sig .tc .vmem S1x256 .f32) (harg19 : arg19.IsWhole) (arg20 : Memref sig .tc .vmem S1x256 .f32) (harg20 : arg20.IsWhole)
  (arg21 : Memref sig .tc .vmem S1x256 .f32) (harg21 : arg21.IsWhole) (arg22 : Memref sig .tc .vmem S512x256 .f32) (harg22 : arg22.IsWhole)
  (arg23 : Memref sig .tc .vmem S512x256 .f32) (harg23 : arg23.IsWhole) (arg24 : Memref sig .tc .vmem S512x256 .f32) (harg24 : arg24.IsWhole)
  (arg25 : Memref sig .tc .vmem S512x256 .f32) (harg25 : arg25.IsWhole) (arg26 : Memref sig .tc .vmem S512x256 .f32) (harg26 : arg26.IsWhole)
  (arg27 : Memref sig .tc .vmem S512x256 .f32) (harg27 : arg27.IsWhole)
variable (x0 x1 : Vec F S512x512 .f32) (x2 x3 x4 x5 x6 x7 x8 x9 x10 : Vec F S512x256 .f32) (x11 x12 x13 x14 x15 x16 x17 x18 : Vec F S1x256 .f32)

/-! ## The first stretch: reset, then one step -/

section CaseA
variable (hc0 : cond0_0 i) (hc1 : ¬cond0_1 i)

theorem soutA0 : sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18
    = k0_pay13 x0 x1 x3 x7 k0_pay7 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18)]
  unfold kernelRun0_A
  dsimp only
  sl_unfold_words
  rw [View.canon_cons_unit_zero (S := S512x256) hz, View.readCov_unit_zero (S := S512x256) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

theorem soutA1 : sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18
    = k0_pay15 k0_pay8 (k0_pay14 x0 x1 x4 x8) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18)]
  unfold kernelRun0_A
  dsimp only
  sl_unfold_words
  rw [View.canon_cons_unit_zero (S := S512x256) hz, View.readCov_unit_zero (S := S512x256) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

theorem soutA2 : sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18
    = k0_pay16 (k0_pay11 x0) (k0_pay12 x1) x5 x9 k0_pay9 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18)]
  unfold kernelRun0_A
  dsimp only
  sl_unfold_words
  rw [View.canon_cons_unit_zero (S := S512x256) hz, View.readCov_unit_zero (S := S512x256) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

theorem soutA3 : sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18
    = k0_pay17 (k0_pay11 x0) (k0_pay12 x1) x6 x10 k0_pay10 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18)]
  unfold kernelRun0_A
  dsimp only
  sl_unfold_words
  rw [View.canon_cons_unit_zero (S := S512x256) hz, View.readCov_unit_zero (S := S512x256) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

end CaseA

/-! ## A middle stretch: one step from what the point before left -/

section CaseB
variable (hc0 : ¬cond0_0 i) (hc1 : ¬cond0_1 i) (xs0 xs1 xs2 xs3 : Vec F S512x256 .f32)

theorem soutB0 : sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3
    = k0_pay13 x0 x1 x3 x7 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

theorem soutB1 : sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3
    = k0_pay15 xs1 (k0_pay14 x0 x1 x4 x8) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

theorem soutB2 : sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3
    = k0_pay16 (k0_pay11 x0) (k0_pay12 x1) x5 x9 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

theorem soutB3 : sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3
    = k0_pay17 (k0_pay11 x0) (k0_pay12 x1) x6 x10 xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

end CaseB

/-! ## The last stretch: the step, then the gates and the two states -/

section CaseC
variable (hc0 : ¬cond0_0 i) (hc1 : cond0_1 i) (xs0 xs1 xs2 xs3 : Vec F S512x256 .f32)

theorem soutC0 : sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3
    = k0_pay13 x0 x1 x3 x7 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

theorem soutC1 : sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3
    = k0_pay15 xs1 (k0_pay14 x0 x1 x4 x8) := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

theorem soutC2 : sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3
    = k0_pay16 (k0_pay11 x0) (k0_pay12 x1) x5 x9 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

theorem soutC3 : sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3
    = k0_pay17 (k0_pay11 x0) (k0_pay12 x1) x6 x10 xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x256) hz, View.ld_unit_zero (S := S512x512) hz, View.ld_unit_zero (S := S1x256) hz]

/-- The new hidden state block, over the four accumulators as this point's step leaves them. -/
theorem outC19 : out0_C_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3
    = k0_pay2 (k0_pay3 (k0_pay13 x0 x1 x3 x7 xs0) x11 x15) (k0_pay4 (k0_pay15 xs1 (k0_pay14 x0 x1 x4 x8)) x12 x16) (k0_pay5 (k0_pay16 (k0_pay11 x0) (k0_pay12 x1) x5 x9 xs2) x13 x17) (k0_pay17 (k0_pay11 x0) (k0_pay12 x1) x6 x10 xs3) (k0_pay6 x14) x18 x2 := by
  unfold out0_C_19
  rw [View.read_writes_eq_canon _ _ _ (cover0_C_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.readCov_unit_zero (S := S512x256) _ hz, View.ld_unit_zero (S := S512x256) hz, View.ld_unit_zero (S := S512x512) hz, View.ld_unit_zero (S := S1x256) hz]

/-- The new cell state block, likewise. -/
theorem outC20 : out0_C_20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3
    = k0_pay1 (k0_pay3 (k0_pay13 x0 x1 x3 x7 xs0) x11 x15) (k0_pay4 (k0_pay15 xs1 (k0_pay14 x0 x1 x4 x8)) x12 x16) (k0_pay17 (k0_pay11 x0) (k0_pay12 x1) x6 x10 xs3) (k0_pay6 x14) x18 x2 := by
  unfold out0_C_20
  rw [View.read_writes_eq_canon _ _ _ (cover0_C_20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.readCov_unit_zero (S := S512x256) _ hz, View.ld_unit_zero (S := S512x256) hz, View.ld_unit_zero (S := S512x512) hz, View.ld_unit_zero (S := S1x256) hz]

end CaseC

end Cert.KernelIdeal.Pieces

end
-- ==== Proof.PayIdeal.lean ====
/-
  The kernel body's arithmetic, read entry by entry over the extended reals.

  A 512×512 block `x` against a 512×256 block `w`, into a zero accumulator, is at row `r`, column `cc` the sum over
  the 512 contracted positions of `x[r,k]·w[k,cc]` (the narrowing of both operands before the product is the identity
  here). One accumulation step adds the input block's product and the hidden block's product to what the accumulator
  held; all four gates' accumulators take that same step, and each starts from zero. At the last stretch the two bias
  rows, each one row broadcast down the 512 rows, are added to the accumulator, the gates pass through the logistic
  function and tanh, and the new cell and hidden states follow.
-/
import proofs.«158810_j39350490366667_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.PayIdeal

open Cert.KernelIdeal Cert.KernelIdeal.Gen Idealize.ShloMosaic Idealize.ShloMosaic.ValueIdx

/-! ## The block product -/

theorem lhs_mm_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_mm_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_mm_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_mm_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- Row `r` of `x` against column `cc` of `w`. -/
def dot (x : Vec Ideal S512x512 .f32) (w : Vec Ideal S512x256 .f32) (r : Fin 512) (cc : Fin 256) : EReal :=
  ∑ kk : Fin 512, x (ix2 r kk) * w (ix2 kk cc)

/-- The block product into a zero accumulator, at row `r`, column `cc`: the narrowed operands are the operands. -/
theorem mm_apply (x : Vec Ideal S512x512 .f32) (w : Vec Ideal S512x256 .f32) (r : Fin 512) (cc : Fin 256) :
    matmul (F := Ideal) dot_S512x512_S512x256_S512x256_1_0_0_1_n_n none (truncf .bf16 x bitsLt_bf16_f32)
      (truncf .bf16 w bitsLt_bf16_f32) (constant (F := Ideal) S512x256 .f32 0x00000000#32) (ix2 r cc) = dot x w r cc := by
  unfold dot matmul
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 r cc) ((contrEquiv1 dot_S512x512_S512x256_S512x256_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S512x512_S512x256_S512x256_1_0_0_1_n_n.rhsIdx (ix2 r cc) ((contrEquiv1 dot_S512x512_S512x256_S512x256_1_0_0_1_n_n 512 rfl rfl).symm k) = ix2 k cc := funext fun a => Fin.ext (by
    match a with
    | ⟨0, _⟩ => exact (rhs_mm_0 _ _).trans hk
    | ⟨1, _⟩ => exact rhs_mm_1 _ _)
  show x _ * w _ = _
  rw [el, er]

/-! ## One accumulation step, and the four accumulators -/

/-- What the accumulator holds after one stretch: what it held, plus the input block's and the hidden block's products. -/
def step (x0 x1 : Vec Ideal S512x512 .f32) (w u acc : Vec Ideal S512x256 .f32) : Vec Ideal S512x256 .f32 :=
  fun y => acc y + (dot x0 w ⟨(y 0).val, idx2_lt0 y⟩ ⟨(y 1).val, idx2_lt1 y⟩ + dot x1 u ⟨(y 0).val, idx2_lt0 y⟩ ⟨(y 1).val, idx2_lt1 y⟩)

theorem step_ix2 (x0 x1 : Vec Ideal S512x512 .f32) (w u acc : Vec Ideal S512x256 .f32) (r : Fin 512) (cc : Fin 256) :
    step x0 x1 w u acc (ix2 r cc) = acc (ix2 r cc) + (dot x0 w r cc + dot x1 u r cc) := rfl

variable (x0 x1 : Vec Ideal S512x512 .f32) (w u acc : Vec Ideal S512x256 .f32)

/-- The input gate's accumulator takes the step. -/
theorem pay13_eq : k0_pay13 (F := Ideal) x0 x1 w u acc = step x0 x1 w u acc := by
  funext y
  obtain ⟨r, cc, rfl⟩ : ∃ (r : Fin 512) (cc : Fin 256), y = ix2 r cc := ⟨y 0, y 1, eq_ix2 y⟩
  unfold k0_pay13 k0_pay11 k0_pay12
  simp only [shapeCast_self]
  rw [step_ix2]
  show acc (ix2 r cc) + (_ + _) = _
  rw [mm_apply, mm_apply]

/-- The forget gate's accumulator takes the step. -/
theorem pay15_eq : k0_pay15 (F := Ideal) acc (k0_pay14 x0 x1 w u) = step x0 x1 w u acc := by
  funext y
  obtain ⟨r, cc, rfl⟩ : ∃ (r : Fin 512) (cc : Fin 256), y = ix2 r cc := ⟨y 0, y 1, eq_ix2 y⟩
  unfold k0_pay15 k0_pay14 k0_pay11 k0_pay12
  simp only [shapeCast_self]
  rw [step_ix2]
  show acc (ix2 r cc) + (_ + _) = _
  rw [mm_apply, mm_apply]

/-- The output gate's accumulator takes the step. -/
theorem pay16_eq : k0_pay16 (F := Ideal) (k0_pay11 x0) (k0_pay12 x1) w u acc = step x0 x1 w u acc := by
  funext y
  obtain ⟨r, cc, rfl⟩ : ∃ (r : Fin 512) (cc : Fin 256), y = ix2 r cc := ⟨y 0, y 1, eq_ix2 y⟩
  unfold k0_pay16 k0_pay11 k0_pay12
  simp only [shapeCast_self]
  rw [step_ix2]
  show acc (ix2 r cc) + (_ + _) = _
  rw [mm_apply, mm_apply]

/-- The candidate gate's accumulator takes the step. -/
theorem pay17_eq : k0_pay17 (F := Ideal) (k0_pay11 x0) (k0_pay12 x1) w u acc = step x0 x1 w u acc := by
  funext y
  obtain ⟨r, cc, rfl⟩ : ∃ (r : Fin 512) (cc : Fin 256), y = ix2 r cc := ⟨y 0, y 1, eq_ix2 y⟩
  unfold k0_pay17 k0_pay11 k0_pay12
  simp only [shapeCast_self]
  rw [step_ix2]
  show acc (ix2 r cc) + (_ + _) = _
  rw [mm_apply, mm_apply]

/-- Each accumulator is reset to zero. -/
theorem pay7_eq : k0_pay7 (F := Ideal) = fun _ => (0 : EReal) := by
  unfold k0_pay7; simp only [shapeCast_self]; funext y; exact Ideal.ofBits_zero_f32
theorem pay8_eq : k0_pay8 (F := Ideal) = fun _ => (0 : EReal) := by
  unfold k0_pay8; simp only [shapeCast_self]; funext y; exact Ideal.ofBits_zero_f32
theorem pay9_eq : k0_pay9 (F := Ideal) = fun _ => (0 : EReal) := by
  unfold k0_pay9; simp only [shapeCast_self]; funext y; exact Ideal.ofBits_zero_f32
theorem pay10_eq : k0_pay10 (F := Ideal) = fun _ => (0 : EReal) := by
  unfold k0_pay10; simp only [shapeCast_self]; funext y; exact Ideal.ofBits_zero_f32

/-! ## The last stretch: biases, gates, the two states -/

/-- A bias row broadcast down the 512 rows reads the row's entry in that column. -/
theorem bias_row (b : Vec Ideal S1x256 .f32) (r : Fin 512) (cc : Fin 256) :
    broadcastTo S512x256 (shapeCast S1x256 (shapeCast S1x256 b shapeCasts_S1x256_S1x256) shapeCasts_S1x256_S1x256)
      broadcasts_S1x256_S512x256 (ix2 r cc) = b (ix2 (0 : Fin 1) cc) := by
  simp only [shapeCast_self]
  exact broadcastTo_apply b broadcasts_S1x256_S512x256 (ix2 r cc) (ix2 (0 : Fin 1) cc) (fun a => match a with
    | ⟨0, _⟩ => by show (0 : Nat) = if (1 : Nat) = 1 then 0 else _; rw [if_pos rfl]
    | ⟨1, _⟩ => by show cc.val = if (256 : Nat) = 1 then 0 else cc.val; rw [if_neg (by decide)])

variable (bwr bur : Vec Ideal S1x256 .f32) (r : Fin 512) (cc : Fin 256)

/-- A gate's pre-activation block: the accumulator plus the two bias rows. -/
theorem pay3_apply : k0_pay3 (F := Ideal) acc bwr bur (ix2 r cc) = (acc (ix2 r cc) + bwr (ix2 (0 : Fin 1) cc)) + bur (ix2 (0 : Fin 1) cc) := by
  unfold k0_pay3
  show (acc (ix2 r cc) + _) + _ = _
  rw [bias_row, bias_row]
theorem pay4_apply : k0_pay4 (F := Ideal) acc bwr bur (ix2 r cc) = (acc (ix2 r cc) + bwr (ix2 (0 : Fin 1) cc)) + bur (ix2 (0 : Fin 1) cc) := by
  unfold k0_pay4
  show (acc (ix2 r cc) + _) + _ = _
  rw [bias_row, bias_row]
theorem pay5_apply : k0_pay5 (F := Ideal) acc bwr bur (ix2 r cc) = (acc (ix2 r cc) + bwr (ix2 (0 : Fin 1) cc)) + bur (ix2 (0 : Fin 1) cc) := by
  unfold k0_pay5
  show (acc (ix2 r cc) + _) + _ = _
  rw [bias_row, bias_row]
theorem pay6_apply : k0_pay6 (F := Ideal) bwr (ix2 r cc) = bwr (ix2 (0 : Fin 1) cc) := by
  unfold k0_pay6
  exact bias_row bwr r cc

/-- The new cell state block from the gates' pre-activations: `σ(f)·c + σ(i)·tanh(g)`, the candidate gate's
    pre-activation assembled from its accumulator and its two bias rows. -/
theorem pay1_apply (vi vf accg bwg : Vec Ideal S512x256 .f32) (c0 : Vec Ideal S512x256 .f32) :
    k0_pay1 (F := Ideal) vi vf accg bwg bur c0 (ix2 r cc)
      = Ideal.logistic (vf (ix2 r cc)) * c0 (ix2 r cc)
        + Ideal.logistic (vi (ix2 r cc)) * Ideal.tanh ((accg (ix2 r cc) + bwg (ix2 r cc)) + bur (ix2 (0 : Fin 1) cc)) := by
  unfold k0_pay1
  show Ideal.logistic _ * _ + Ideal.logistic _ * Ideal.tanh ((_ + _) + _) = _
  rw [bias_row]

/-- The new hidden state block: `σ(o)·tanh(c')`. -/
theorem pay2_apply (vi vf vo accg bwg : Vec Ideal S512x256 .f32) (c0 : Vec Ideal S512x256 .f32) :
    k0_pay2 (F := Ideal) vi vf vo accg bwg bur c0 (ix2 r cc)
      = Ideal.logistic (vo (ix2 r cc)) * Ideal.tanh (k0_pay1 (F := Ideal) vi vf accg bwg bur c0 (ix2 r cc)) := by
  unfold k0_pay2
  rfl

end Cert.KernelIdeal.PayIdeal

end
-- ==== Proof.Blocks.lean ====
/-
  Each window's block at a grid point, as entries of the argument arrays.

  The grid is 16 row tiles × 8 column tiles × 4 stretches, the stretch running fastest: point `t` is row tile `t / 32`,
  column tile `(t / 4) % 8`, stretch `t % 4`. A block entry is the array's entry at block index × block size + the
  coordinate inside the block. The eight weight arrays and eight bias rows the kernel is launched with are gate `g`'s
  2048 columns of a packed argument (for a bias, of the packed bias laid out as one row), so their entries are the packed
  argument's at column `2048·g + ·`.
-/
import proofs.«158810_j39350490366667_1_alg».proof.Proof.Gen.KernelIdeal.Frame.Runs
import Idealize.ShloMosaic.Lib.ValueIdx
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

theorem N512 (t : Fin cfg0.N) : t.val < 512 := lt_of_lt_of_eq t.isLt N_0

/-- The array row of row `r` of point `t`'s row tile. -/
def rowOf (t : Fin cfg0.N) (r : Fin 512) : Fin 8192 := ⟨512 * (t.val / 32) + r.val, by have := N512 t; have := r.isLt; omega⟩
/-- The contracted position of position `kk` of point `t`'s stretch. -/
def kOf (t : Fin cfg0.N) (kk : Fin 512) : Fin 2048 := ⟨512 * (t.val % 4) + kk.val, by have := kk.isLt; omega⟩
/-- The hidden column of column `cc` of point `t`'s column tile. -/
def colOf (t : Fin cfg0.N) (cc : Fin 256) : Fin 2048 := ⟨256 * (t.val / 4 % 8) + cc.val, by have := cc.isLt; omega⟩
/-- Hidden column `n` of gate `g` in the packed layout. -/
def packed (g : Fin 4) (n : Fin 2048) : Fin 8192 := ⟨2048 * g.val + n.val, by have := g.isLt; have := n.isLt; omega⟩

/-! ## Where each window's block sits, decided once over the 512 points -/

theorem idx0 : ∀ t : Fin cfg0.N, win0_0.index t 0 = t.val / 32 ∧ win0_0.index t 1 = t.val % 4 := by decide +kernel
theorem idx1 : ∀ t : Fin cfg0.N, win0_1.index t 0 = t.val / 32 ∧ win0_1.index t 1 = t.val % 4 := by decide +kernel
theorem idx2 : ∀ t : Fin cfg0.N, win0_2.index t 0 = t.val / 32 ∧ win0_2.index t 1 = t.val / 4 % 8 := by decide +kernel
theorem idx3 : ∀ t : Fin cfg0.N, win0_3.index t 0 = t.val % 4 ∧ win0_3.index t 1 = t.val / 4 % 8 := by decide +kernel
theorem idx4 : ∀ t : Fin cfg0.N, win0_4.index t 0 = t.val % 4 ∧ win0_4.index t 1 = t.val / 4 % 8 := by decide +kernel
theorem idx5 : ∀ t : Fin cfg0.N, win0_5.index t 0 = t.val % 4 ∧ win0_5.index t 1 = t.val / 4 % 8 := by decide +kernel
theorem idx6 : ∀ t : Fin cfg0.N, win0_6.index t 0 = t.val % 4 ∧ win0_6.index t 1 = t.val / 4 % 8 := by decide +kernel
theorem idx7 : ∀ t : Fin cfg0.N, win0_7.index t 0 = t.val % 4 ∧ win0_7.index t 1 = t.val / 4 % 8 := by decide +kernel
theorem idx8 : ∀ t : Fin cfg0.N, win0_8.index t 0 = t.val % 4 ∧ win0_8.index t 1 = t.val / 4 % 8 := by decide +kernel
theorem idx9 : ∀ t : Fin cfg0.N, win0_9.index t 0 = t.val % 4 ∧ win0_9.index t 1 = t.val / 4 % 8 := by decide +kernel
theorem idx10 : ∀ t : Fin cfg0.N, win0_10.index t 0 = t.val % 4 ∧ win0_10.index t 1 = t.val / 4 % 8 := by decide +kernel
theorem idx11 : ∀ t : Fin cfg0.N, win0_11.index t 0 = 0 ∧ win0_11.index t 1 = t.val / 4 % 8 := by decide +kernel
theorem idx12 : ∀ t : Fin cfg0.N, win0_12.index t 0 = 0 ∧ win0_12.index t 1 = t.val / 4 % 8 := by decide +kernel
theorem idx13 : ∀ t : Fin cfg0.N, win0_13.index t 0 = 0 ∧ win0_13.index t 1 = t.val / 4 % 8 := by decide +kernel
theorem idx14 : ∀ t : Fin cfg0.N, win0_14.index t 0 = 0 ∧ win0_14.index t 1 = t.val / 4 % 8 := by decide +kernel
theorem idx15 : ∀ t : Fin cfg0.N, win0_15.index t 0 = 0 ∧ win0_15.index t 1 = t.val / 4 % 8 := by decide +kernel
theorem idx16 : ∀ t : Fin cfg0.N, win0_16.index t 0 = 0 ∧ win0_16.index t 1 = t.val / 4 % 8 := by decide +kernel
theorem idx17 : ∀ t : Fin cfg0.N, win0_17.index t 0 = 0 ∧ win0_17.index t 1 = t.val / 4 % 8 := by decide +kernel
theorem idx18 : ∀ t : Fin cfg0.N, win0_18.index t 0 = 0 ∧ win0_18.index t 1 = t.val / 4 % 8 := by decide +kernel
theorem idx19 : ∀ t : Fin cfg0.N, win0_19.index t 0 = t.val / 32 ∧ win0_19.index t 1 = t.val / 4 % 8 := by decide +kernel
theorem idx20 : ∀ t : Fin cfg0.N, win0_20.index t 0 = t.val / 32 ∧ win0_20.index t 1 = t.val / 4 % 8 := by decide +kernel

/-! ## The three row-by-hidden inputs -/

/-- The input block. -/
theorem blk0 (c : Dev nD) (t : Fin cfg0.N) (r kk : Fin 512) :
    (iblk m c 0 t : Vec F S512x512 .f32) (ix2 r kk) = m ((c : Thread nD τ).loc main_arg0) (ix2 (rowOf t r) (kOf t kk)) := by
  unfold iblk
  rw [View.read_apply]
  show V m c main_arg0 _ = _
  rw [V_main_arg0]
  refine congrArg _ (funext fun a => Fin.ext ?_)
  match a with
  | ⟨0, _⟩ => show win0_0.index t 0 * 512 + 1 * r.val = 512 * (t.val / 32) + r.val; rw [(idx0 t).1]; omega
  | ⟨1, _⟩ => show win0_0.index t 1 * 512 + 1 * kk.val = 512 * (t.val % 4) + kk.val; rw [(idx0 t).2]; omega

/-- The hidden-state block. -/
theorem blk1 (c : Dev nD) (t : Fin cfg0.N) (r kk : Fin 512) :
    (iblk m c 1 t : Vec F S512x512 .f32) (ix2 r kk) = m ((c : Thread nD τ).loc main_arg1) (ix2 (rowOf t r) (kOf t kk)) := by
  unfold iblk
  rw [View.read_apply]
  show V m c main_arg1 _ = _
  rw [V_main_arg1]
  refine congrArg _ (funext fun a => Fin.ext ?_)
  match a with
  | ⟨0, _⟩ => show win0_1.index t 0 * 512 + 1 * r.val = 512 * (t.val / 32) + r.val; rw [(idx1 t).1]; omega
  | ⟨1, _⟩ => show win0_1.index t 1 * 512 + 1 * kk.val = 512 * (t.val % 4) + kk.val; rw [(idx1 t).2]; omega

/-- The cell-state block. -/
theorem blk2 (c : Dev nD) (t : Fin cfg0.N) (r : Fin 512) (cc : Fin 256) :
    (iblk m c 2 t : Vec F S512x256 .f32) (ix2 r cc) = m ((c : Thread nD τ).loc main_arg2) (ix2 (rowOf t r) (colOf t cc)) := by
  unfold iblk
  rw [View.read_apply]
  show V m c main_arg2 _ = _
  rw [V_main_arg2]
  refine congrArg _ (funext fun a => Fin.ext ?_)
  match a with
  | ⟨0, _⟩ => show win0_2.index t 0 * 512 + 1 * r.val = 512 * (t.val / 32) + r.val; rw [(idx2 t).1]; omega
  | ⟨1, _⟩ => show win0_2.index t 1 * 256 + 1 * cc.val = 256 * (t.val / 4 % 8) + cc.val; rw [(idx2 t).2]; omega

/-! ## The eight weight arrays: gate `g`'s 2048 columns of a packed matrix -/

theorem V_v0 (c : Dev nD) : (V m c main_v0 : S2048x2048.Idx → Elt F .f32)
    = extractStridedSlice S2048x2048 ![0, 0] (m ((c : Thread nD τ).loc main_arg3)) slices_S2048x8192_S2048x2048_0_0 := by
  dsimp only [Gen.V, Gen.hostOps0]; after_results <;> rfl
theorem V_v1 (c : Dev nD) : (V m c main_v1 : S2048x2048.Idx → Elt F .f32)
    = extractStridedSlice S2048x2048 ![0, 2048] (m ((c : Thread nD τ).loc main_arg3)) slices_S2048x8192_S2048x2048_0_2048 := by
  dsimp only [Gen.V, Gen.hostOps0]; after_results <;> rfl
theorem V_v2 (c : Dev nD) : (V m c main_v2 : S2048x2048.Idx → Elt F .f32)
    = extractStridedSlice S2048x2048 ![0, 4096] (m ((c : Thread nD τ).loc main_arg3)) slices_S2048x8192_S2048x2048_0_4096 := by
  dsimp only [Gen.V, Gen.hostOps0]; after_results <;> rfl
theorem V_v3 (c : Dev nD) : (V m c main_v3 : S2048x2048.Idx → Elt F .f32)
    = extractStridedSlice S2048x2048 ![0, 6144] (m ((c : Thread nD τ).loc main_arg3)) slices_S2048x8192_S2048x2048_0_6144 := by
  dsimp only [Gen.V, Gen.hostOps0]; after_results <;> rfl
theorem V_v4 (c : Dev nD) : (V m c main_v4 : S2048x2048.Idx → Elt F .f32)
    = extractStridedSlice S2048x2048 ![0, 0] (m ((c : Thread nD τ).loc main_arg5)) slices_S2048x8192_S2048x2048_0_0 := by
  dsimp only [Gen.V, Gen.hostOps0]; after_results <;> rfl
theorem V_v5 (c : Dev nD) : (V m c main_v5 : S2048x2048.Idx → Elt F .f32)
    = extractStridedSlice S2048x2048 ![0, 2048] (m ((c : Thread nD τ).loc main_arg5)) slices_S2048x8192_S2048x2048_0_2048 := by
  dsimp only [Gen.V, Gen.hostOps0]; after_results <;> rfl
theorem V_v6 (c : Dev nD) : (V m c main_v6 : S2048x2048.Idx → Elt F .f32)
    = extractStridedSlice S2048x2048 ![0, 4096] (m ((c : Thread nD τ).loc main_arg5)) slices_S2048x8192_S2048x2048_0_4096 := by
  dsimp only [Gen.V, Gen.hostOps0]; after_results <;> rfl
theorem V_v7 (c : Dev nD) : (V m c main_v7 : S2048x2048.Idx → Elt F .f32)
    = extractStridedSlice S2048x2048 ![0, 6144] (m ((c : Thread nD τ).loc main_arg5)) slices_S2048x8192_S2048x2048_0_6144 := by
  dsimp only [Gen.V, Gen.hostOps0]; after_results <;> rfl

/-- The input gate's input-weight block. -/
theorem blk3 (c : Dev nD) (t : Fin cfg0.N) (kk : Fin 512) (cc : Fin 256) :
    (iblk m c 3 t : Vec F S512x256 .f32) (ix2 kk cc) = m ((c : Thread nD τ).loc main_arg3) (ix2 (kOf t kk) (packed 0 (colOf t cc))) := by
  unfold iblk
  rw [View.read_apply]
  show V m c main_v0 _ = _
  rw [V_v0]
  refine extractStridedSlice_apply (s := S2048x8192) ![0, 0] (m ((c : Thread nD τ).loc main_arg3)) slices_S2048x8192_S2048x2048_0_0 _ (ix2 (kOf t kk) (packed 0 (colOf t cc))) (fun a => ?_)
  match a with
  | ⟨0, _⟩ => show 512 * (t.val % 4) + kk.val = 0 + (win0_3.index t 0 * 512 + 1 * kk.val); rw [(idx3 t).1]; omega
  | ⟨1, _⟩ => show 2048 * 0 + (256 * (t.val / 4 % 8) + cc.val) = 0 + (win0_3.index t 1 * 256 + 1 * cc.val); rw [(idx3 t).2]; omega

/-- The forget gate's input-weight block. -/
theorem blk4 (c : Dev nD) (t : Fin cfg0.N) (kk : Fin 512) (cc : Fin 256) :
    (iblk m c 4 t : Vec F S512x256 .f32) (ix2 kk cc) = m ((c : Thread nD τ).loc main_arg3) (ix2 (kOf t kk) (packed 1 (colOf t cc))) := by
  unfold iblk
  rw [View.read_apply]
  show V m c main_v1 _ = _
  rw [V_v1]
  refine extractStridedSlice_apply (s := S2048x8192) ![0, 2048] (m ((c : Thread nD τ).loc main_arg3)) slices_S2048x8192_S2048x2048_0_2048 _ (ix2 (kOf t kk) (packed 1 (colOf t cc))) (fun a => ?_)
  match a with
  | ⟨0, _⟩ => show 512 * (t.val % 4) + kk.val = 0 + (win0_4.index t 0 * 512 + 1 * kk.val); rw [(idx4 t).1]; omega
  | ⟨1, _⟩ => show 2048 * 1 + (256 * (t.val / 4 % 8) + cc.val) = 2048 + (win0_4.index t 1 * 256 + 1 * cc.val); rw [(idx4 t).2]; omega

/-- The output gate's input-weight block. -/
theorem blk5 (c : Dev nD) (t : Fin cfg0.N) (kk : Fin 512) (cc : Fin 256) :
    (iblk m c 5 t : Vec F S512x256 .f32) (ix2 kk cc) = m ((c : Thread nD τ).loc main_arg3) (ix2 (kOf t kk) (packed 2 (colOf t cc))) := by
  unfold iblk
  rw [View.read_apply]
  show V m c main_v2 _ = _
  rw [V_v2]
  refine extractStridedSlice_apply (s := S2048x8192) ![0, 4096] (m ((c : Thread nD τ).loc main_arg3)) slices_S2048x8192_S2048x2048_0_4096 _ (ix2 (kOf t kk) (packed 2 (colOf t cc))) (fun a => ?_)
  match a with
  | ⟨0, _⟩ => show 512 * (t.val % 4) + kk.val = 0 + (win0_5.index t 0 * 512 + 1 * kk.val); rw [(idx5 t).1]; omega
  | ⟨1, _⟩ => show 2048 * 2 + (256 * (t.val / 4 % 8) + cc.val) = 4096 + (win0_5.index t 1 * 256 + 1 * cc.val); rw [(idx5 t).2]; omega

/-- The candidate gate's input-weight block. -/
theorem blk6 (c : Dev nD) (t : Fin cfg0.N) (kk : Fin 512) (cc : Fin 256) :
    (iblk m c 6 t : Vec F S512x256 .f32) (ix2 kk cc) = m ((c : Thread nD τ).loc main_arg3) (ix2 (kOf t kk) (packed 3 (colOf t cc))) := by
  unfold iblk
  rw [View.read_apply]
  show V m c main_v3 _ = _
  rw [V_v3]
  refine extractStridedSlice_apply (s := S2048x8192) ![0, 6144] (m ((c : Thread nD τ).loc main_arg3)) slices_S2048x8192_S2048x2048_0_6144 _ (ix2 (kOf t kk) (packed 3 (colOf t cc))) (fun a => ?_)
  match a with
  | ⟨0, _⟩ => show 512 * (t.val % 4) + kk.val = 0 + (win0_6.index t 0 * 512 + 1 * kk.val); rw [(idx6 t).1]; omega
  | ⟨1, _⟩ => show 2048 * 3 + (256 * (t.val / 4 % 8) + cc.val) = 6144 + (win0_6.index t 1 * 256 + 1 * cc.val); rw [(idx6 t).2]; omega

/-- The input gate's hidden-weight block. -/
theorem blk7 (c : Dev nD) (t : Fin cfg0.N) (kk : Fin 512) (cc : Fin 256) :
    (iblk m c 7 t : Vec F S512x256 .f32) (ix2 kk cc) = m ((c : Thread nD τ).loc main_arg5) (ix2 (kOf t kk) (packed 0 (colOf t cc))) := by
  unfold iblk
  rw [View.read_apply]
  show V m c main_v4 _ = _
  rw [V_v4]
  refine extractStridedSlice_apply (s := S2048x8192) ![0, 0] (m ((c : Thread nD τ).loc main_arg5)) slices_S2048x8192_S2048x2048_0_0 _ (ix2 (kOf t kk) (packed 0 (colOf t cc))) (fun a => ?_)
  match a with
  | ⟨0, _⟩ => show 512 * (t.val % 4) + kk.val = 0 + (win0_7.index t 0 * 512 + 1 * kk.val); rw [(idx7 t).1]; omega
  | ⟨1, _⟩ => show 2048 * 0 + (256 * (t.val / 4 % 8) + cc.val) = 0 + (win0_7.index t 1 * 256 + 1 * cc.val); rw [(idx7 t).2]; omega

/-- The forget gate's hidden-weight block. -/
theorem blk8 (c : Dev nD) (t : Fin cfg0.N) (kk : Fin 512) (cc : Fin 256) :
    (iblk m c 8 t : Vec F S512x256 .f32) (ix2 kk cc) = m ((c : Thread nD τ).loc main_arg5) (ix2 (kOf t kk) (packed 1 (colOf t cc))) := by
  unfold iblk
  rw [View.read_apply]
  show V m c main_v5 _ = _
  rw [V_v5]
  refine extractStridedSlice_apply (s := S2048x8192) ![0, 2048] (m ((c : Thread nD τ).loc main_arg5)) slices_S2048x8192_S2048x2048_0_2048 _ (ix2 (kOf t kk) (packed 1 (colOf t cc))) (fun a => ?_)
  match a with
  | ⟨0, _⟩ => show 512 * (t.val % 4) + kk.val = 0 + (win0_8.index t 0 * 512 + 1 * kk.val); rw [(idx8 t).1]; omega
  | ⟨1, _⟩ => show 2048 * 1 + (256 * (t.val / 4 % 8) + cc.val) = 2048 + (win0_8.index t 1 * 256 + 1 * cc.val); rw [(idx8 t).2]; omega

/-- The output gate's hidden-weight block. -/
theorem blk9 (c : Dev nD) (t : Fin cfg0.N) (kk : Fin 512) (cc : Fin 256) :
    (iblk m c 9 t : Vec F S512x256 .f32) (ix2 kk cc) = m ((c : Thread nD τ).loc main_arg5) (ix2 (kOf t kk) (packed 2 (colOf t cc))) := by
  unfold iblk
  rw [View.read_apply]
  show V m c main_v6 _ = _
  rw [V_v6]
  refine extractStridedSlice_apply (s := S2048x8192) ![0, 4096] (m ((c : Thread nD τ).loc main_arg5)) slices_S2048x8192_S2048x2048_0_4096 _ (ix2 (kOf t kk) (packed 2 (colOf t cc))) (fun a => ?_)
  match a with
  | ⟨0, _⟩ => show 512 * (t.val % 4) + kk.val = 0 + (win0_9.index t 0 * 512 + 1 * kk.val); rw [(idx9 t).1]; omega
  | ⟨1, _⟩ => show 2048 * 2 + (256 * (t.val / 4 % 8) + cc.val) = 4096 + (win0_9.index t 1 * 256 + 1 * cc.val); rw [(idx9 t).2]; omega

/-- The candidate gate's hidden-weight block. -/
theorem blk10 (c : Dev nD) (t : Fin cfg0.N) (kk : Fin 512) (cc : Fin 256) :
    (iblk m c 10 t : Vec F S512x256 .f32) (ix2 kk cc) = m ((c : Thread nD τ).loc main_arg5) (ix2 (kOf t kk) (packed 3 (colOf t cc))) := by
  unfold iblk
  rw [View.read_apply]
  show V m c main_v7 _ = _
  rw [V_v7]
  refine extractStridedSlice_apply (s := S2048x8192) ![0, 6144] (m ((c : Thread nD τ).loc main_arg5)) slices_S2048x8192_S2048x2048_0_6144 _ (ix2 (kOf t kk) (packed 3 (colOf t cc))) (fun a => ?_)
  match a with
  | ⟨0, _⟩ => show 512 * (t.val % 4) + kk.val = 0 + (win0_10.index t 0 * 512 + 1 * kk.val); rw [(idx10 t).1]; omega
  | ⟨1, _⟩ => show 2048 * 3 + (256 * (t.val / 4 % 8) + cc.val) = 6144 + (win0_10.index t 1 * 256 + 1 * cc.val); rw [(idx10 t).2]; omega

/-! ## The eight bias rows: gate `g`'s 2048 entries of a packed bias, laid out as one row -/

theorem V_v10 (c : Dev nD) : (V m c main_v10 : S1x2048.Idx → Elt F .f32)
    = extractStridedSlice S1x2048 ![0, 0] (shapeCast S1x8192 (m ((c : Thread nD τ).loc main_arg4)) shapeCasts_S8192_S1x8192) slices_S1x8192_S1x2048_0_0 := by
  dsimp only [Gen.V, Gen.hostOps0]; after_results <;> rfl
theorem V_v11 (c : Dev nD) : (V m c main_v11 : S1x2048.Idx → Elt F .f32)
    = extractStridedSlice S1x2048 ![0, 2048] (shapeCast S1x8192 (m ((c : Thread nD τ).loc main_arg4)) shapeCasts_S8192_S1x8192) slices_S1x8192_S1x2048_0_2048 := by
  dsimp only [Gen.V, Gen.hostOps0]; after_results <;> rfl
theorem V_v12 (c : Dev nD) : (V m c main_v12 : S1x2048.Idx → Elt F .f32)
    = extractStridedSlice S1x2048 ![0, 4096] (shapeCast S1x8192 (m ((c : Thread nD τ).loc main_arg4)) shapeCasts_S8192_S1x8192) slices_S1x8192_S1x2048_0_4096 := by
  dsimp only [Gen.V, Gen.hostOps0]; after_results <;> rfl
theorem V_v13 (c : Dev nD) : (V m c main_v13 : S1x2048.Idx → Elt F .f32)
    = extractStridedSlice S1x2048 ![0, 6144] (shapeCast S1x8192 (m ((c : Thread nD τ).loc main_arg4)) shapeCasts_S8192_S1x8192) slices_S1x8192_S1x2048_0_6144 := by
  dsimp only [Gen.V, Gen.hostOps0]; after_results <;> rfl
theorem V_v14 (c : Dev nD) : (V m c main_v14 : S1x2048.Idx → Elt F .f32)
    = extractStridedSlice S1x2048 ![0, 0] (shapeCast S1x8192 (m ((c : Thread nD τ).loc main_arg6)) shapeCasts_S8192_S1x8192) slices_S1x8192_S1x2048_0_0 := by
  dsimp only [Gen.V, Gen.hostOps0]; after_results <;> rfl
theorem V_v15 (c : Dev nD) : (V m c main_v15 : S1x2048.Idx → Elt F .f32)
    = extractStridedSlice S1x2048 ![0, 2048] (shapeCast S1x8192 (m ((c : Thread nD τ).loc main_arg6)) shapeCasts_S8192_S1x8192) slices_S1x8192_S1x2048_0_2048 := by
  dsimp only [Gen.V, Gen.hostOps0]; after_results <;> rfl
theorem V_v16 (c : Dev nD) : (V m c main_v16 : S1x2048.Idx → Elt F .f32)
    = extractStridedSlice S1x2048 ![0, 4096] (shapeCast S1x8192 (m ((c : Thread nD τ).loc main_arg6)) shapeCasts_S8192_S1x8192) slices_S1x8192_S1x2048_0_4096 := by
  dsimp only [Gen.V, Gen.hostOps0]; after_results <;> rfl
theorem V_v17 (c : Dev nD) : (V m c main_v17 : S1x2048.Idx → Elt F .f32)
    = extractStridedSlice S1x2048 ![0, 6144] (shapeCast S1x8192 (m ((c : Thread nD τ).loc main_arg6)) shapeCasts_S8192_S1x8192) slices_S1x8192_S1x2048_0_6144 := by
  dsimp only [Gen.V, Gen.hostOps0]; after_results <;> rfl

/-- The packed bias laid out as one row reads, in column `p`, the bias's entry `p`. -/
theorem one_row (b : S8192.Idx → Elt F .f32) (p : Fin 8192) :
    shapeCast S1x8192 b shapeCasts_S8192_S1x8192 (ix2 (0 : Fin 1) p) = b (ix1 p) := by
  refine shapeCast_apply b shapeCasts_S8192_S1x8192 (ix2 (0 : Fin 1) p) (ix1 p) ?_
  show ((⟨1, ![8192]⟩ : Shape).rowMajor (ix1 p)).val = ((⟨2, ![1, 8192]⟩ : Shape).rowMajor (ix2 (0 : Fin 1) p)).val
  rw [Shape.rowMajor_val_one, Shape.rowMajor_val_two]
  show p.val = 0 * 8192 + p.val
  omega

/-- The input gate's input-bias row block. -/
theorem blk11 (c : Dev nD) (t : Fin cfg0.N) (cc : Fin 256) :
    (iblk m c 11 t : Vec F S1x256 .f32) (ix2 (0 : Fin 1) cc) = m ((c : Thread nD τ).loc main_arg4) (ix1 (packed 0 (colOf t cc))) := by
  unfold iblk
  rw [View.read_apply]
  show V m c main_v10 _ = _
  rw [V_v10]
  rw [extractStridedSlice_apply (s := S1x8192) ![0, 0] (shapeCast S1x8192 (m ((c : Thread nD τ).loc main_arg4)) shapeCasts_S8192_S1x8192) slices_S1x8192_S1x2048_0_0 _ (ix2 (0 : Fin 1) (packed 0 (colOf t cc))) (fun a => ?_)]
  · exact one_row _ _
  · match a with
    | ⟨0, _⟩ => show (0 : Nat) = 0 + (win0_11.index t 0 * 1 + 1 * 0); rw [(idx11 t).1]
    | ⟨1, _⟩ => show 2048 * 0 + (256 * (t.val / 4 % 8) + cc.val) = 0 + (win0_11.index t 1 * 256 + 1 * cc.val); rw [(idx11 t).2]; omega

/-- The forget gate's input-bias row block. -/
theorem blk12 (c : Dev nD) (t : Fin cfg0.N) (cc : Fin 256) :
    (iblk m c 12 t : Vec F S1x256 .f32) (ix2 (0 : Fin 1) cc) = m ((c : Thread nD τ).loc main_arg4) (ix1 (packed 1 (colOf t cc))) := by
  unfold iblk
  rw [View.read_apply]
  show V m c main_v11 _ = _
  rw [V_v11]
  rw [extractStridedSlice_apply (s := S1x8192) ![0, 2048] (shapeCast S1x8192 (m ((c : Thread nD τ).loc main_arg4)) shapeCasts_S8192_S1x8192) slices_S1x8192_S1x2048_0_2048 _ (ix2 (0 : Fin 1) (packed 1 (colOf t cc))) (fun a => ?_)]
  · exact one_row _ _
  · match a with
    | ⟨0, _⟩ => show (0 : Nat) = 0 + (win0_12.index t 0 * 1 + 1 * 0); rw [(idx12 t).1]
    | ⟨1, _⟩ => show 2048 * 1 + (256 * (t.val / 4 % 8) + cc.val) = 2048 + (win0_12.index t 1 * 256 + 1 * cc.val); rw [(idx12 t).2]; omega

/-- The output gate's input-bias row block. -/
theorem blk13 (c : Dev nD) (t : Fin cfg0.N) (cc : Fin 256) :
    (iblk m c 13 t : Vec F S1x256 .f32) (ix2 (0 : Fin 1) cc) = m ((c : Thread nD τ).loc main_arg4) (ix1 (packed 2 (colOf t cc))) := by
  unfold iblk
  rw [View.read_apply]
  show V m c main_v12 _ = _
  rw [V_v12]
  rw [extractStridedSlice_apply (s := S1x8192) ![0, 4096] (shapeCast S1x8192 (m ((c : Thread nD τ).loc main_arg4)) shapeCasts_S8192_S1x8192) slices_S1x8192_S1x2048_0_4096 _ (ix2 (0 : Fin 1) (packed 2 (colOf t cc))) (fun a => ?_)]
  · exact one_row _ _
  · match a with
    | ⟨0, _⟩ => show (0 : Nat) = 0 + (win0_13.index t 0 * 1 + 1 * 0); rw [(idx13 t).1]
    | ⟨1, _⟩ => show 2048 * 2 + (256 * (t.val / 4 % 8) + cc.val) = 4096 + (win0_13.index t 1 * 256 + 1 * cc.val); rw [(idx13 t).2]; omega

/-- The candidate gate's input-bias row block. -/
theorem blk14 (c : Dev nD) (t : Fin cfg0.N) (cc : Fin 256) :
    (iblk m c 14 t : Vec F S1x256 .f32) (ix2 (0 : Fin 1) cc) = m ((c : Thread nD τ).loc main_arg4) (ix1 (packed 3 (colOf t cc))) := by
  unfold iblk
  rw [View.read_apply]
  show V m c main_v13 _ = _
  rw [V_v13]
  rw [extractStridedSlice_apply (s := S1x8192) ![0, 6144] (shapeCast S1x8192 (m ((c : Thread nD τ).loc main_arg4)) shapeCasts_S8192_S1x8192) slices_S1x8192_S1x2048_0_6144 _ (ix2 (0 : Fin 1) (packed 3 (colOf t cc))) (fun a => ?_)]
  · exact one_row _ _
  · match a with
    | ⟨0, _⟩ => show (0 : Nat) = 0 + (win0_14.index t 0 * 1 + 1 * 0); rw [(idx14 t).1]
    | ⟨1, _⟩ => show 2048 * 3 + (256 * (t.val / 4 % 8) + cc.val) = 6144 + (win0_14.index t 1 * 256 + 1 * cc.val); rw [(idx14 t).2]; omega

/-- The input gate's hidden-bias row block. -/
theorem blk15 (c : Dev nD) (t : Fin cfg0.N) (cc : Fin 256) :
    (iblk m c 15 t : Vec F S1x256 .f32) (ix2 (0 : Fin 1) cc) = m ((c : Thread nD τ).loc main_arg6) (ix1 (packed 0 (colOf t cc))) := by
  unfold iblk
  rw [View.read_apply]
  show V m c main_v14 _ = _
  rw [V_v14]
  rw [extractStridedSlice_apply (s := S1x8192) ![0, 0] (shapeCast S1x8192 (m ((c : Thread nD τ).loc main_arg6)) shapeCasts_S8192_S1x8192) slices_S1x8192_S1x2048_0_0 _ (ix2 (0 : Fin 1) (packed 0 (colOf t cc))) (fun a => ?_)]
  · exact one_row _ _
  · match a with
    | ⟨0, _⟩ => show (0 : Nat) = 0 + (win0_15.index t 0 * 1 + 1 * 0); rw [(idx15 t).1]
    | ⟨1, _⟩ => show 2048 * 0 + (256 * (t.val / 4 % 8) + cc.val) = 0 + (win0_15.index t 1 * 256 + 1 * cc.val); rw [(idx15 t).2]; omega

/-- The forget gate's hidden-bias row block. -/
theorem blk16 (c : Dev nD) (t : Fin cfg0.N) (cc : Fin 256) :
    (iblk m c 16 t : Vec F S1x256 .f32) (ix2 (0 : Fin 1) cc) = m ((c : Thread nD τ).loc main_arg6) (ix1 (packed 1 (colOf t cc))) := by
  unfold iblk
  rw [View.read_apply]
  show V m c main_v15 _ = _
  rw [V_v15]
  rw [extractStridedSlice_apply (s := S1x8192) ![0, 2048] (shapeCast S1x8192 (m ((c : Thread nD τ).loc main_arg6)) shapeCasts_S8192_S1x8192) slices_S1x8192_S1x2048_0_2048 _ (ix2 (0 : Fin 1) (packed 1 (colOf t cc))) (fun a => ?_)]
  · exact one_row _ _
  · match a with
    | ⟨0, _⟩ => show (0 : Nat) = 0 + (win0_16.index t 0 * 1 + 1 * 0); rw [(idx16 t).1]
    | ⟨1, _⟩ => show 2048 * 1 + (256 * (t.val / 4 % 8) + cc.val) = 2048 + (win0_16.index t 1 * 256 + 1 * cc.val); rw [(idx16 t).2]; omega

/-- The output gate's hidden-bias row block. -/
theorem blk17 (c : Dev nD) (t : Fin cfg0.N) (cc : Fin 256) :
    (iblk m c 17 t : Vec F S1x256 .f32) (ix2 (0 : Fin 1) cc) = m ((c : Thread nD τ).loc main_arg6) (ix1 (packed 2 (colOf t cc))) := by
  unfold iblk
  rw [View.read_apply]
  show V m c main_v16 _ = _
  rw [V_v16]
  rw [extractStridedSlice_apply (s := S1x8192) ![0, 4096] (shapeCast S1x8192 (m ((c : Thread nD τ).loc main_arg6)) shapeCasts_S8192_S1x8192) slices_S1x8192_S1x2048_0_4096 _ (ix2 (0 : Fin 1) (packed 2 (colOf t cc))) (fun a => ?_)]
  · exact one_row _ _
  · match a with
    | ⟨0, _⟩ => show (0 : Nat) = 0 + (win0_17.index t 0 * 1 + 1 * 0); rw [(idx17 t).1]
    | ⟨1, _⟩ => show 2048 * 2 + (256 * (t.val / 4 % 8) + cc.val) = 4096 + (win0_17.index t 1 * 256 + 1 * cc.val); rw [(idx17 t).2]; omega

/-- The candidate gate's hidden-bias row block. -/
theorem blk18 (c : Dev nD) (t : Fin cfg0.N) (cc : Fin 256) :
    (iblk m c 18 t : Vec F S1x256 .f32) (ix2 (0 : Fin 1) cc) = m ((c : Thread nD τ).loc main_arg6) (ix1 (packed 3 (colOf t cc))) := by
  unfold iblk
  rw [View.read_apply]
  show V m c main_v17 _ = _
  rw [V_v17]
  rw [extractStridedSlice_apply (s := S1x8192) ![0, 6144] (shapeCast S1x8192 (m ((c : Thread nD τ).loc main_arg6)) shapeCasts_S8192_S1x8192) slices_S1x8192_S1x2048_0_6144 _ (ix2 (0 : Fin 1) (packed 3 (colOf t cc))) (fun a => ?_)]
  · exact one_row _ _
  · match a with
    | ⟨0, _⟩ => show (0 : Nat) = 0 + (win0_18.index t 0 * 1 + 1 * 0); rw [(idx18 t).1]
    | ⟨1, _⟩ => show 2048 * 3 + (256 * (t.val / 4 % 8) + cc.val) = 6144 + (win0_18.index t 1 * 256 + 1 * cc.val); rw [(idx18 t).2]; omega

end Cert.KernelIdeal.Blocks

end
-- ==== Proof.Spec.lean ====
/-
  The LSTM cell as ONE function of the seven argument arrays, entry by entry, over the extended reals.

  Row `b < 8192`, hidden column `n < 2048`. The packed weights have 8192 = 4 · 2048 columns, gate `g` (0 input,
  1 forget, 2 output, 3 candidate) owning columns `2048·g … 2048·g + 2047`. The pre-activation of gate `g` is

      pre g b n = Σ_k x[b,k]·W[k, 2048g+n]  +  bw[2048g+n]  +  Σ_k h[b,k]·U[k, 2048g+n]  +  bu[2048g+n],

  the new cell state  c' = σ(pre 1)·c + σ(pre 0)·tanh(pre 3)  and the new hidden state  h' = σ(pre 2)·tanh(c').

  The same number can be reached by cutting each length-2048 sum into four stretches of 512 and adding, stretch by
  stretch, the x- and the h-stretch's partial products into an accumulator that starts at zero, the two biases going in
  last (`preK`). The two orders agree (`preK_eq_pre`): only commutativity and associativity of addition are used, and
  those hold on all of the extended reals, so no entry need be finite.
-/
import Idealize.ShloMosaic.PureOps.Ideal
import Idealize.ShloMosaic.Lib.ValueIdx

noncomputable section

open scoped BigOperators

namespace Cert.Lstm

open Idealize.ShloMosaic Idealize.ShloMosaic.ValueIdx

/-- Rows by hidden width: the inputs `x`, `h`, `c` and both results. -/
abbrev SX : Shape := ⟨2, ![8192, 2048]⟩
/-- A packed weight matrix: 2048 rows, four gates' 2048 columns side by side. -/
abbrev SW : Shape := ⟨2, ![2048, 8192]⟩
/-- A packed bias: four gates' 2048 entries end to end. -/
abbrev SB : Shape := ⟨1, ![8192]⟩

/-- Column `n` of gate `g` in the packed layout. -/
def col (g : Fin 4) (n : Fin 2048) : Fin 8192 := ⟨2048 * g.val + n.val, by have := g.isLt; have := n.isLt; omega⟩

/-- Position `kk` of the `kb`-th stretch of 512 along the contracted axis. -/
def kidx (kb : Fin 4) (kk : Fin 512) : Fin 2048 := ⟨512 * kb.val + kk.val, by have := kb.isLt; have := kk.isLt; omega⟩

variable (X H C : SX.Idx → EReal) (W U : SW.Idx → EReal) (bw bu : SB.Idx → EReal)

/-- Gate `g`'s pre-activation at row `b`, column `n`: the input's product, its bias, the hidden state's product, its
    bias, added in that order. -/
def pre (g : Fin 4) (b : Fin 8192) (n : Fin 2048) : EReal :=
  (((∑ k : Fin 2048, X (ix2 b k) * W (ix2 k (col g n))) + bw (ix1 (col g n)))
      + ∑ k : Fin 2048, H (ix2 b k) * U (ix2 k (col g n))) + bu (ix1 (col g n))

/-- What the `kb`-th stretch of 512 contributes to gate `g`: the input's partial product plus the hidden state's. -/
def stretch (g : Fin 4) (b : Fin 8192) (n : Fin 2048) (kb : Fin 4) : EReal :=
  (∑ kk : Fin 512, X (ix2 b (kidx kb kk)) * W (ix2 (kidx kb kk) (col g n)))
    + ∑ kk : Fin 512, H (ix2 b (kidx kb kk)) * U (ix2 (kidx kb kk) (col g n))

/-- The same pre-activation accumulated stretch by stretch from zero, the biases added last. -/
def preK (g : Fin 4) (b : Fin 8192) (n : Fin 2048) : EReal :=
  (((((0 + stretch X H W U g b n 0) + stretch X H W U g b n 1) + stretch X H W U g b n 2) + stretch X H W U g b n 3)
      + bw (ix1 (col g n))) + bu (ix1 (col g n))

/-- A sum over 2048 positions is the sum over four stretches of the sums over each stretch's 512 positions. -/
theorem sum_stretches {M : Type*} [AddCommMonoid M] (f : Fin 2048 → M) :
    ∑ k : Fin 2048, f k = ∑ kb : Fin 4, ∑ kk : Fin 512, f (kidx kb kk) := by
  rw [← Fintype.sum_prod_type']
  refine (Fintype.sum_equiv (finProdFinEquiv (m := 4) (n := 512)) (fun p => f (kidx p.1 p.2)) f (fun p => ?_)).symm
  exact congrArg f (Fin.ext (by simp [kidx, finProdFinEquiv]; omega))

/-- The two orders of addition give the same pre-activation, on all of the extended reals. -/
theorem preK_eq_pre (g : Fin 4) (b : Fin 8192) (n : Fin 2048) :
    preK X H W U bw bu g b n = pre X H W U bw bu g b n := by
  unfold preK pre stretch
  rw [sum_stretches (fun k => X (ix2 b k) * W (ix2 k (col g n))),
    sum_stretches (fun k => H (ix2 b k) * U (ix2 k (col g n))), Fin.sum_univ_four, Fin.sum_univ_four, zero_add]
  abel

/-- The accumulator's own form: zero plus the four stretches' sum, then the two biases, is the pre-activation. -/
theorem pre_of_stretches (g : Fin 4) (b : Fin 8192) (n : Fin 2048) :
    ((0 + ∑ kb : Fin 4, stretch X H W U g b n kb) + bw (ix1 (col g n))) + bu (ix1 (col g n)) = pre X H W U bw bu g b n := by
  rw [← preK_eq_pre]
  unfold preK
  rw [Fin.sum_univ_four]
  simp only [zero_add, add_assoc]

/-- The new cell state at row `b`, column `n`. -/
def cellC (b : Fin 8192) (n : Fin 2048) : EReal :=
  Ideal.logistic (pre X H W U bw bu 1 b n) * C (ix2 b n)
    + Ideal.logistic (pre X H W U bw bu 0 b n) * Ideal.tanh (pre X H W U bw bu 3 b n)

/-- The new hidden state at row `b`, column `n`. -/
def cellH (b : Fin 8192) (n : Fin 2048) : EReal :=
  Ideal.logistic (pre X H W U bw bu 2 b n) * Ideal.tanh (cellC X H C W U bw bu b n)

/-- The new cell state as an array. -/
def Gc : SX.Idx → EReal := fun i => cellC X H C W U bw bu ⟨(i 0).val, idx2_lt0 i⟩ ⟨(i 1).val, idx2_lt1 i⟩

/-- The new hidden state as an array. -/
def Gh : SX.Idx → EReal := fun i => cellH X H C W U bw bu ⟨(i 0).val, idx2_lt0 i⟩ ⟨(i 1).val, idx2_lt1 i⟩

theorem Gc_ix2 (b : Fin 8192) (n : Fin 2048) : Gc X H C W U bw bu (ix2 b n) = cellC X H C W U bw bu b n := rfl

theorem Gh_ix2 (b : Fin 8192) (n : Fin 2048) : Gh X H C W U bw bu (ix2 b n) = cellH X H C W U bw bu b n := rfl

end Cert.Lstm

end
-- ==== Proof.CellValue.lean ====
/-
  What the kernel's two result arrays hold: the specification's new hidden state and new cell state.

  One tile of 512 rows by 256 columns is visited at four consecutive grid points, one per stretch of 512 contracted
  positions. Each visit adds to each gate's accumulator the input block's and the hidden block's products, that is, that
  stretch's share of the gate's two dot products; the first visit starts from zero. So after the fourth visit an
  accumulator holds zero plus the sum of the four stretches' shares, and with the two bias entries added it is the gate's
  pre-activation. The last visit then forms the new cell and hidden states from the four gates and the old cell state,
  and writes those two blocks back. The blocks written back at the 128 last visits tile the two result arrays.
-/
import proofs.«158810_j39350490366667_1_alg».proof.Proof.KernelIdealP.Value
import proofs.«158810_j39350490366667_1_alg».proof.Proof.Pieces
import proofs.«158810_j39350490366667_1_alg».proof.Proof.PayIdeal
import proofs.«158810_j39350490366667_1_alg».proof.Proof.Blocks
import proofs.«158810_j39350490366667_1_alg».proof.Proof.Spec
import Idealize.ShloMosaic.Lib.Pipeline.Value

set_option maxRecDepth 16384

noncomputable section

open scoped BigOperators

namespace Cert.KernelIdeal.CellValue

open Cert.KernelIdeal Cert.KernelIdeal.Gen Cert.KernelIdeal.GenP Cert.KernelIdeal.ValueP
open Cert.KernelIdeal.PayIdeal Cert.KernelIdeal.Blocks Cert.Lstm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The seven arguments as plain arrays -/

abbrev aX (c : Dev nD) : SX.Idx → EReal := m ((c : Thread nD τ).loc main_arg0)
abbrev aH (c : Dev nD) : SX.Idx → EReal := m ((c : Thread nD τ).loc main_arg1)
abbrev aC (c : Dev nD) : SX.Idx → EReal := m ((c : Thread nD τ).loc main_arg2)
abbrev aW (c : Dev nD) : SW.Idx → EReal := m ((c : Thread nD τ).loc main_arg3)
abbrev aBw (c : Dev nD) : SB.Idx → EReal := m ((c : Thread nD τ).loc main_arg4)
abbrev aU (c : Dev nD) : SW.Idx → EReal := m ((c : Thread nD τ).loc main_arg5)
abbrev aBu (c : Dev nD) : SB.Idx → EReal := m ((c : Thread nD τ).loc main_arg6)

/-! ## What one visit adds to a gate's accumulator -/

/-- Point `n`'s share of gate `g`'s two dot products, at entry `y` of the tile (zero past the grid, where it is never used). -/
def addend (g : Fin 4) (c : Dev nD) (n : ℕ) : S512x256.Idx → EReal := fun y =>
  if h : n < cfg0.N then
    (∑ kk : Fin 512, aX m c (ix2 (rowOf ⟨n, h⟩ ⟨(y 0).val, idx2_lt0 y⟩) (kOf ⟨n, h⟩ kk))
        * aW m c (ix2 (kOf ⟨n, h⟩ kk) (packed g (colOf ⟨n, h⟩ ⟨(y 1).val, idx2_lt1 y⟩))))
      + ∑ kk : Fin 512, aH m c (ix2 (rowOf ⟨n, h⟩ ⟨(y 0).val, idx2_lt0 y⟩) (kOf ⟨n, h⟩ kk))
        * aU m c (ix2 (kOf ⟨n, h⟩ kk) (packed g (colOf ⟨n, h⟩ ⟨(y 1).val, idx2_lt1 y⟩)))
  else 0

/-- The input gate's step over point `t`'s blocks adds point `t`'s share. -/
theorem step_blk0 (c : Dev nD) (t : Fin cfg0.N) (acc : Vec Ideal S512x256 .f32) (r : Fin 512) (cc : Fin 256) :
    step (iblk m c 0 t) (iblk m c 1 t) (iblk m c 3 t) (iblk m c 7 t) acc (ix2 r cc) = acc (ix2 r cc) + addend m 0 c t.val (ix2 r cc) := by
  rw [step_ix2]
  unfold addend dot
  rw [dif_pos t.isLt]
  refine congrArg (acc (ix2 r cc) + ·) (congrArg₂ (· + ·) ?_ ?_)
  · exact Finset.sum_congr rfl fun kk _ => by rw [blk0 m c t r kk, blk3 m c t kk cc]
  · exact Finset.sum_congr rfl fun kk _ => by rw [blk1 m c t r kk, blk7 m c t kk cc]

/-- The forget gate's. -/
theorem step_blk1 (c : Dev nD) (t : Fin cfg0.N) (acc : Vec Ideal S512x256 .f32) (r : Fin 512) (cc : Fin 256) :
    step (iblk m c 0 t) (iblk m c 1 t) (iblk m c 4 t) (iblk m c 8 t) acc (ix2 r cc) = acc (ix2 r cc) + addend m 1 c t.val (ix2 r cc) := by
  rw [step_ix2]
  unfold addend dot
  rw [dif_pos t.isLt]
  refine congrArg (acc (ix2 r cc) + ·) (congrArg₂ (· + ·) ?_ ?_)
  · exact Finset.sum_congr rfl fun kk _ => by rw [blk0 m c t r kk, blk4 m c t kk cc]
  · exact Finset.sum_congr rfl fun kk _ => by rw [blk1 m c t r kk, blk8 m c t kk cc]

/-- The output gate's. -/
theorem step_blk2 (c : Dev nD) (t : Fin cfg0.N) (acc : Vec Ideal S512x256 .f32) (r : Fin 512) (cc : Fin 256) :
    step (iblk m c 0 t) (iblk m c 1 t) (iblk m c 5 t) (iblk m c 9 t) acc (ix2 r cc) = acc (ix2 r cc) + addend m 2 c t.val (ix2 r cc) := by
  rw [step_ix2]
  unfold addend dot
  rw [dif_pos t.isLt]
  refine congrArg (acc (ix2 r cc) + ·) (congrArg₂ (· + ·) ?_ ?_)
  · exact Finset.sum_congr rfl fun kk _ => by rw [blk0 m c t r kk, blk5 m c t kk cc]
  · exact Finset.sum_congr rfl fun kk _ => by rw [blk1 m c t r kk, blk9 m c t kk cc]

/-- The candidate gate's. -/
theorem step_blk3 (c : Dev nD) (t : Fin cfg0.N) (acc : Vec Ideal S512x256 .f32) (r : Fin 512) (cc : Fin 256) :
    step (iblk m c 0 t) (iblk m c 1 t) (iblk m c 6 t) (iblk m c 10 t) acc (ix2 r cc) = acc (ix2 r cc) + addend m 3 c t.val (ix2 r cc) := by
  rw [step_ix2]
  unfold addend dot
  rw [dif_pos t.isLt]
  refine congrArg (acc (ix2 r cc) + ·) (congrArg₂ (· + ·) ?_ ?_)
  · exact Finset.sum_congr rfl fun kk _ => by rw [blk0 m c t r kk, blk6 m c t kk cc]
  · exact Finset.sum_congr rfl fun kk _ => by rw [blk1 m c t r kk, blk10 m c t kk cc]

/-! ## An accumulator after any point: zero plus the shares of its run so far -/

/-- The input gate's accumulator. -/
theorem scratch0 (c : Dev nD) (t : Fin cfg0.N) (y : S512x256.Idx) :
    (outsAt0 m c t.val t.isLt).2.2.1 y = 0 + ∑ s ∈ Finset.range (t.val % 4 + 1), addend m 0 c (4 * (t.val / 4) + s) y := by
  rw [soutsAt0_0_eq]
  have hb : (4 * (t.val / 4)) % 4 = 0 := Nat.mul_mod_right 4 _
  refine Pipeline.accAt_add_apply (fun n h => scAt0_0 m c n h (VS0_0.read (Elt Ideal) VS0_0.junk)) (scAt0_0 m c)
    (fun _ => 0) (addend m 0 c) (4 * (t.val / 4)) 3 ?_ ?_ (t.val % 4) (by omega) _ y
  · intro h i
    obtain ⟨r, cc, rfl⟩ : ∃ (r : Fin 512) (cc : Fin 256), i = ix2 r cc := ⟨i 0, i 1, eq_ix2 i⟩
    show scAt0_0 m c (4 * (t.val / 4)) h _ (ix2 r cc) = _
    unfold scAt0_0
    rw [dif_pos hb, dif_neg (by omega), Pieces.soutA0, pay13_eq, pay7_eq]
    exact step_blk0 m c ⟨_, h⟩ (fun _ => 0) r cc
  · intro n h acc i hlo hhi
    obtain ⟨r, cc, rfl⟩ : ∃ (r : Fin 512) (cc : Fin 256), i = ix2 r cc := ⟨i 0, i 1, eq_ix2 i⟩
    have h0 : ¬n % 4 = 0 := by omega
    unfold scAt0_0
    by_cases h1 : n % 4 = 3
    · rw [dif_neg h0, dif_pos h1, Pieces.soutC0, pay13_eq]
      exact step_blk0 m c ⟨n, h⟩ acc r cc
    · rw [dif_neg h0, dif_neg h1, Pieces.soutB0, pay13_eq]
      exact step_blk0 m c ⟨n, h⟩ acc r cc

/-- The forget gate's accumulator. -/
theorem scratch1 (c : Dev nD) (t : Fin cfg0.N) (y : S512x256.Idx) :
    (outsAt0 m c t.val t.isLt).2.2.2.1 y = 0 + ∑ s ∈ Finset.range (t.val % 4 + 1), addend m 1 c (4 * (t.val / 4) + s) y := by
  rw [soutsAt0_1_eq]
  have hb : (4 * (t.val / 4)) % 4 = 0 := Nat.mul_mod_right 4 _
  refine Pipeline.accAt_add_apply (fun n h => scAt0_1 m c n h (VS0_1.read (Elt Ideal) VS0_1.junk)) (scAt0_1 m c)
    (fun _ => 0) (addend m 1 c) (4 * (t.val / 4)) 3 ?_ ?_ (t.val % 4) (by omega) _ y
  · intro h i
    obtain ⟨r, cc, rfl⟩ : ∃ (r : Fin 512) (cc : Fin 256), i = ix2 r cc := ⟨i 0, i 1, eq_ix2 i⟩
    show scAt0_1 m c (4 * (t.val / 4)) h _ (ix2 r cc) = _
    unfold scAt0_1
    rw [dif_pos hb, dif_neg (by omega), Pieces.soutA1, pay15_eq, pay8_eq]
    exact step_blk1 m c ⟨_, h⟩ (fun _ => 0) r cc
  · intro n h acc i hlo hhi
    obtain ⟨r, cc, rfl⟩ : ∃ (r : Fin 512) (cc : Fin 256), i = ix2 r cc := ⟨i 0, i 1, eq_ix2 i⟩
    have h0 : ¬n % 4 = 0 := by omega
    unfold scAt0_1
    by_cases h1 : n % 4 = 3
    · rw [dif_neg h0, dif_pos h1, Pieces.soutC1, pay15_eq]
      exact step_blk1 m c ⟨n, h⟩ acc r cc
    · rw [dif_neg h0, dif_neg h1, Pieces.soutB1, pay15_eq]
      exact step_blk1 m c ⟨n, h⟩ acc r cc

/-- The output gate's accumulator. -/
theorem scratch2 (c : Dev nD) (t : Fin cfg0.N) (y : S512x256.Idx) :
    (outsAt0 m c t.val t.isLt).2.2.2.2.1 y = 0 + ∑ s ∈ Finset.range (t.val % 4 + 1), addend m 2 c (4 * (t.val / 4) + s) y := by
  rw [soutsAt0_2_eq]
  have hb : (4 * (t.val / 4)) % 4 = 0 := Nat.mul_mod_right 4 _
  refine Pipeline.accAt_add_apply (fun n h => scAt0_2 m c n h (VS0_2.read (Elt Ideal) VS0_2.junk)) (scAt0_2 m c)
    (fun _ => 0) (addend m 2 c) (4 * (t.val / 4)) 3 ?_ ?_ (t.val % 4) (by omega) _ y
  · intro h i
    obtain ⟨r, cc, rfl⟩ : ∃ (r : Fin 512) (cc : Fin 256), i = ix2 r cc := ⟨i 0, i 1, eq_ix2 i⟩
    show scAt0_2 m c (4 * (t.val / 4)) h _ (ix2 r cc) = _
    unfold scAt0_2
    rw [dif_pos hb, dif_neg (by omega), Pieces.soutA2, pay16_eq, pay9_eq]
    exact step_blk2 m c ⟨_, h⟩ (fun _ => 0) r cc
  · intro n h acc i hlo hhi
    obtain ⟨r, cc, rfl⟩ : ∃ (r : Fin 512) (cc : Fin 256), i = ix2 r cc := ⟨i 0, i 1, eq_ix2 i⟩
    have h0 : ¬n % 4 = 0 := by omega
    unfold scAt0_2
    by_cases h1 : n % 4 = 3
    · rw [dif_neg h0, dif_pos h1, Pieces.soutC2, pay16_eq]
      exact step_blk2 m c ⟨n, h⟩ acc r cc
    · rw [dif_neg h0, dif_neg h1, Pieces.soutB2, pay16_eq]
      exact step_blk2 m c ⟨n, h⟩ acc r cc

/-- The candidate gate's accumulator. -/
theorem scratch3 (c : Dev nD) (t : Fin cfg0.N) (y : S512x256.Idx) :
    (outsAt0 m c t.val t.isLt).2.2.2.2.2 y = 0 + ∑ s ∈ Finset.range (t.val % 4 + 1), addend m 3 c (4 * (t.val / 4) + s) y := by
  rw [soutsAt0_3_eq]
  have hb : (4 * (t.val / 4)) % 4 = 0 := Nat.mul_mod_right 4 _
  refine Pipeline.accAt_add_apply (fun n h => scAt0_3 m c n h (VS0_3.read (Elt Ideal) VS0_3.junk)) (scAt0_3 m c)
    (fun _ => 0) (addend m 3 c) (4 * (t.val / 4)) 3 ?_ ?_ (t.val % 4) (by omega) _ y
  · intro h i
    obtain ⟨r, cc, rfl⟩ : ∃ (r : Fin 512) (cc : Fin 256), i = ix2 r cc := ⟨i 0, i 1, eq_ix2 i⟩
    show scAt0_3 m c (4 * (t.val / 4)) h _ (ix2 r cc) = _
    unfold scAt0_3
    rw [dif_pos hb, dif_neg (by omega), Pieces.soutA3, pay17_eq, pay10_eq]
    exact step_blk3 m c ⟨_, h⟩ (fun _ => 0) r cc
  · intro n h acc i hlo hhi
    obtain ⟨r, cc, rfl⟩ : ∃ (r : Fin 512) (cc : Fin 256), i = ix2 r cc := ⟨i 0, i 1, eq_ix2 i⟩
    have h0 : ¬n % 4 = 0 := by omega
    unfold scAt0_3
    by_cases h1 : n % 4 = 3
    · rw [dif_neg h0, dif_pos h1, Pieces.soutC3, pay17_eq]
      exact step_blk3 m c ⟨n, h⟩ acc r cc
    · rw [dif_neg h0, dif_neg h1, Pieces.soutB3, pay17_eq]
      exact step_blk3 m c ⟨n, h⟩ acc r cc

/-! ## A run's four shares are the four stretches -/

/-- The four points of `t`'s run visit the same row tile, -/
theorem rowOf_run (t : Fin cfg0.N) (s : Fin 4) (h : 4 * (t.val / 4) + s.val < cfg0.N) (r : Fin 512) :
    rowOf ⟨4 * (t.val / 4) + s.val, h⟩ r = rowOf t r := Fin.ext (by
  show 512 * ((4 * (t.val / 4) + s.val) / 32) + r.val = 512 * (t.val / 32) + r.val
  have := s.isLt; omega)

/-- the same column tile, -/
theorem colOf_run (t : Fin cfg0.N) (s : Fin 4) (h : 4 * (t.val / 4) + s.val < cfg0.N) (cc : Fin 256) :
    colOf ⟨4 * (t.val / 4) + s.val, h⟩ cc = colOf t cc := Fin.ext (by
  show 256 * ((4 * (t.val / 4) + s.val) / 4 % 8) + cc.val = 256 * (t.val / 4 % 8) + cc.val
  have := s.isLt; omega)

/-- and the `s`-th of them the `s`-th stretch. -/
theorem kOf_run (t : Fin cfg0.N) (s : Fin 4) (h : 4 * (t.val / 4) + s.val < cfg0.N) (kk : Fin 512) :
    kOf ⟨4 * (t.val / 4) + s.val, h⟩ kk = kidx s kk := Fin.ext (by
  show 512 * ((4 * (t.val / 4) + s.val) % 4) + kk.val = 512 * s.val + kk.val
  have := s.isLt; omega)

/-- The shares of the four points of `t`'s run, at entry (r, cc) of the tile, are gate `g`'s four stretches at the entry's
    array row and hidden column. -/
theorem run_sum (g : Fin 4) (c : Dev nD) (t : Fin cfg0.N) (r : Fin 512) (cc : Fin 256) :
    ∑ s ∈ Finset.range 4, addend m g c (4 * (t.val / 4) + s) (ix2 r cc)
      = ∑ kb : Fin 4, stretch (aX m c) (aH m c) (aW m c) (aU m c) g (rowOf t r) (colOf t cc) kb := by
  rw [Finset.sum_range]
  refine Finset.sum_congr rfl fun kb _ => ?_
  have hlt : 4 * (t.val / 4) + kb.val < cfg0.N := lt_of_lt_of_eq (by have := N512 t; have := kb.isLt; omega) N_0.symm
  unfold addend stretch
  rw [dif_pos hlt]
  refine congrArg₂ (· + ·) ?_ ?_
  · refine Finset.sum_congr rfl fun kk _ => ?_
    show aX m c (ix2 (rowOf ⟨_, hlt⟩ r) (kOf ⟨_, hlt⟩ kk)) * aW m c (ix2 (kOf ⟨_, hlt⟩ kk) (packed g (colOf ⟨_, hlt⟩ cc))) = _
    rw [rowOf_run, colOf_run, kOf_run]
    rfl
  · refine Finset.sum_congr rfl fun kk _ => ?_
    show aH m c (ix2 (rowOf ⟨_, hlt⟩ r) (kOf ⟨_, hlt⟩ kk)) * aU m c (ix2 (kOf ⟨_, hlt⟩ kk) (packed g (colOf ⟨_, hlt⟩ cc))) = _
    rw [rowOf_run, colOf_run, kOf_run]
    rfl

/-- At a last visit, an accumulator that holds zero plus its run's shares, with the gate's two bias entries added, is
    the gate's pre-activation. -/
theorem pre_from (g : Fin 4) (c : Dev nD) (t : Fin cfg0.N) (h1 : t.val % 4 = 3) (S : S512x256.Idx → EReal)
    (hS : ∀ y, S y = 0 + ∑ s ∈ Finset.range (t.val % 4 + 1), addend m g c (4 * (t.val / 4) + s) y) (r : Fin 512) (cc : Fin 256) :
    (S (ix2 r cc) + aBw m c (ix1 (packed g (colOf t cc)))) + aBu m c (ix1 (packed g (colOf t cc)))
      = pre (aX m c) (aH m c) (aW m c) (aU m c) (aBw m c) (aBu m c) g (rowOf t r) (colOf t cc) := by
  have e : t.val % 4 + 1 = 4 := by omega
  rw [hS, e, run_sum]
  exact pre_of_stretches (aX m c) (aH m c) (aW m c) (aU m c) (aBw m c) (aBu m c) g (rowOf t r) (colOf t cc)

/-! ## The two blocks a last visit leaves, over the accumulators after that visit -/

theorem out19_eq (c : Dev nD) (t : Fin cfg0.N) (h0 : ¬t.val % 4 = 0) (h1 : t.val % 4 = 3) :
    (outsAt0 m c t.val t.isLt).1
      = k0_pay2 (k0_pay3 (outsAt0 m c t.val t.isLt).2.2.1 (iblk m c 11 t) (iblk m c 15 t))
          (k0_pay4 (outsAt0 m c t.val t.isLt).2.2.2.1 (iblk m c 12 t) (iblk m c 16 t))
          (k0_pay5 (outsAt0 m c t.val t.isLt).2.2.2.2.1 (iblk m c 13 t) (iblk m c 17 t))
          (outsAt0 m c t.val t.isLt).2.2.2.2.2 (k0_pay6 (iblk m c 14 t)) (iblk m c 18 t) (iblk m c 2 t) := by
  rw [outsAt0_C m c t h0 h1]
  dsimp only
  rw [Pieces.outC19, Pieces.soutC0, Pieces.soutC1, Pieces.soutC2, Pieces.soutC3]

theorem out20_eq (c : Dev nD) (t : Fin cfg0.N) (h0 : ¬t.val % 4 = 0) (h1 : t.val % 4 = 3) :
    (outsAt0 m c t.val t.isLt).2.1
      = k0_pay1 (k0_pay3 (outsAt0 m c t.val t.isLt).2.2.1 (iblk m c 11 t) (iblk m c 15 t))
          (k0_pay4 (outsAt0 m c t.val t.isLt).2.2.2.1 (iblk m c 12 t) (iblk m c 16 t))
          (outsAt0 m c t.val t.isLt).2.2.2.2.2 (k0_pay6 (iblk m c 14 t)) (iblk m c 18 t) (iblk m c 2 t) := by
  rw [outsAt0_C m c t h0 h1]
  dsimp only
  rw [Pieces.outC20, Pieces.soutC0, Pieces.soutC1, Pieces.soutC3]

/-! ## The two states at an entry of the tile -/

/-- The cell-state payload over the accumulators after a last visit is the specification's new cell state. -/
theorem cell_core (c : Dev nD) (t : Fin cfg0.N) (h1 : t.val % 4 = 3) (r : Fin 512) (cc : Fin 256) :
    k0_pay1 (k0_pay3 (outsAt0 m c t.val t.isLt).2.2.1 (iblk m c 11 t) (iblk m c 15 t))
        (k0_pay4 (outsAt0 m c t.val t.isLt).2.2.2.1 (iblk m c 12 t) (iblk m c 16 t))
        (outsAt0 m c t.val t.isLt).2.2.2.2.2 (k0_pay6 (iblk m c 14 t)) (iblk m c 18 t) (iblk m c 2 t) (ix2 r cc)
      = cellC (aX m c) (aH m c) (aC m c) (aW m c) (aU m c) (aBw m c) (aBu m c) (rowOf t r) (colOf t cc) := by
  rw [pay1_apply, pay3_apply, pay4_apply, pay6_apply, blk11 m c t cc, blk15 m c t cc, blk12 m c t cc, blk16 m c t cc,
    blk14 m c t cc, blk18 m c t cc, blk2 m c t r cc]
  unfold cellC
  rw [← pre_from m 0 c t h1 _ (scratch0 m c t) r cc, ← pre_from m 1 c t h1 _ (scratch1 m c t) r cc,
    ← pre_from m 3 c t h1 _ (scratch3 m c t) r cc]

/-- The new cell state block at an entry. -/
theorem cell_at (c : Dev nD) (t : Fin cfg0.N) (h0 : ¬t.val % 4 = 0) (h1 : t.val % 4 = 3) (r : Fin 512) (cc : Fin 256) :
    (outsAt0 m c t.val t.isLt).2.1 (ix2 r cc)
      = cellC (aX m c) (aH m c) (aC m c) (aW m c) (aU m c) (aBw m c) (aBu m c) (rowOf t r) (colOf t cc) := by
  rw [out20_eq m c t h0 h1]
  exact cell_core m c t h1 r cc

/-- The new hidden state block at an entry. -/
theorem hidden_at (c : Dev nD) (t : Fin cfg0.N) (h0 : ¬t.val % 4 = 0) (h1 : t.val % 4 = 3) (r : Fin 512) (cc : Fin 256) :
    (outsAt0 m c t.val t.isLt).1 (ix2 r cc)
      = cellH (aX m c) (aH m c) (aC m c) (aW m c) (aU m c) (aBw m c) (aBu m c) (rowOf t r) (colOf t cc) := by
  rw [out19_eq m c t h0 h1, pay2_apply, cell_core m c t h1 r cc, pay5_apply, blk13 m c t cc, blk17 m c t cc]
  unfold cellH
  rw [← pre_from m 2 c t h1 _ (scratch2 m c t) r cc]

/-! ## From blocks to the arrays -/

/-- The output blocks are written back exactly at the last visits. -/
theorem flush19_iff : ∀ t : Fin cfg0.N, (cfg0.win 19).flush t = true ↔ t.val % 4 = 3 := by decide +kernel
theorem flush20_iff : ∀ t : Fin cfg0.N, (cfg0.win 20).flush t = true ↔ t.val % 4 = 3 := by decide +kernel

/-- The block's entry (r, cc) is the array's entry at the tile's row and hidden column. -/
theorem emb19 (t : Fin cfg0.N) (r : Fin 512) (cc : Fin 256) :
    ((cfg0.win 19).blk t).view.emb (ix2 r cc) = ix2 (rowOf t r) (colOf t cc) := funext fun a => Fin.ext (by
  match a with
  | ⟨0, _⟩ => show win0_19.index t 0 * 512 + 1 * r.val = 512 * (t.val / 32) + r.val; rw [(idx19 t).1]; omega
  | ⟨1, _⟩ => show win0_19.index t 1 * 256 + 1 * cc.val = 256 * (t.val / 4 % 8) + cc.val; rw [(idx19 t).2]; omega)
theorem emb20 (t : Fin cfg0.N) (r : Fin 512) (cc : Fin 256) :
    ((cfg0.win 20).blk t).view.emb (ix2 r cc) = ix2 (rowOf t r) (colOf t cc) := funext fun a => Fin.ext (by
  match a with
  | ⟨0, _⟩ => show win0_20.index t 0 * 512 + 1 * r.val = 512 * (t.val / 32) + r.val; rw [(idx20 t).1]; omega
  | ⟨1, _⟩ => show win0_20.index t 1 * 256 + 1 * cc.val = 256 * (t.val / 4 % 8) + cc.val; rw [(idx20 t).2]; omega)

/-- The new hidden state as the result array's contents. -/
abbrev hiddenArr (c : Dev nD) : Buf (Elt Ideal) ((c : Thread nD τ).loc main_v18_0) :=
  Gh (aX m c) (aH m c) (aC m c) (aW m c) (aU m c) (aBw m c) (aBu m c)
/-- The new cell state as the result array's contents. -/
abbrev cellArr (c : Dev nD) : Buf (Elt Ideal) ((c : Thread nD τ).loc main_v18_1) :=
  Gc (aX m c) (aH m c) (aC m c) (aW m c) (aU m c) (aBw m c) (aBu m c)

/-- What a last visit writes back to the hidden-state array is that block of the specification's array. -/
theorem flushed19_eq (c : Dev nD) (t : Fin cfg0.N) (hf : (cfg0.win 19).flush t = true) :
    (dats m 0 c).flushed 19 t = ((cfg0.win 19).blk t).view.read (Elt Ideal) (hiddenArr m c) := by
  have h1 : t.val % 4 = 3 := (flush19_iff t).mp hf
  have h0 : ¬t.val % 4 = 0 := by omega
  rw [flushed19]
  funext y
  obtain ⟨r, cc, rfl⟩ : ∃ (r : Fin 512) (cc : Fin 256), y = ix2 r cc := ⟨y 0, y 1, eq_ix2 y⟩
  rw [View.read_apply]
  show (outsAt0 m c t.val t.isLt).1 (ix2 r cc) = hiddenArr m c (((cfg0.win 19).blk t).view.emb (ix2 r cc))
  rw [emb19, hidden_at m c t h0 h1 r cc]
  rfl

theorem flushed20_eq (c : Dev nD) (t : Fin cfg0.N) (hf : (cfg0.win 20).flush t = true) :
    (dats m 0 c).flushed 20 t = ((cfg0.win 20).blk t).view.read (Elt Ideal) (cellArr m c) := by
  have h1 : t.val % 4 = 3 := (flush20_iff t).mp hf
  have h0 : ¬t.val % 4 = 0 := by omega
  rw [flushed20]
  funext y
  obtain ⟨r, cc, rfl⟩ : ∃ (r : Fin 512) (cc : Fin 256), y = ix2 r cc := ⟨y 0, y 1, eq_ix2 y⟩
  rw [View.read_apply]
  show (outsAt0 m c t.val t.isLt).2.1 (ix2 r cc) = cellArr m c (((cfg0.win 20).blk t).view.emb (ix2 r cc))
  rw [emb20, cell_at m c t h0 h1 r cc]
  rfl

/-- An array entry is in point `t`'s block iff each coordinate is in the block's range on its axis. -/
theorem mem_blk19 (t : Fin cfg0.N) (i : S8192x2048.Idx) :
    i ∈ ((cfg0.win 19).blk t).view.set ↔ ∀ a : Fin 2, win0_19.index t a * S512x256.size a ≤ (i a).val ∧ (i a).val < win0_19.index t a * S512x256.size a + S512x256.size a := by
  show i ∈ ((View.whole main_v18_0).slice (win0_19.rect t)).set ↔ _
  rw [View.set_slice_whole, Rect.mem_set_unit]
  exact Iff.rfl
theorem mem_blk20 (t : Fin cfg0.N) (i : S8192x2048.Idx) :
    i ∈ ((cfg0.win 20).blk t).view.set ↔ ∀ a : Fin 2, win0_20.index t a * S512x256.size a ≤ (i a).val ∧ (i a).val < win0_20.index t a * S512x256.size a + S512x256.size a := by
  show i ∈ ((View.whole main_v18_1).slice (win0_20.rect t)).set ↔ _
  rw [View.set_slice_whole, Rect.mem_set_unit]
  exact Iff.rfl

/-- Every entry of the hidden-state array lies in the block some last visit writes back: that of its row tile and
    column tile. -/
theorem cover19 (i : S8192x2048.Idx) : ∃ t : Fin cfg0.N, (cfg0.win 19).flush t = true ∧ i ∈ ((cfg0.win 19).blk t).view.set := by
  have hi0 : (i 0).val < 8192 := (i 0).isLt
  have hi1 : (i 1).val < 2048 := (i 1).isLt
  have ht : 32 * ((i 0).val / 512) + 4 * ((i 1).val / 256) + 3 < cfg0.N := lt_of_lt_of_eq (by omega) N_0.symm
  refine ⟨⟨32 * ((i 0).val / 512) + 4 * ((i 1).val / 256) + 3, ht⟩, (flush19_iff _).mpr (by show (32 * ((i 0).val / 512) + 4 * ((i 1).val / 256) + 3) % 4 = 3; omega), ?_⟩
  rw [mem_blk19]
  intro a
  match a with
  | ⟨0, _⟩ =>
    show win0_19.index ⟨_, ht⟩ 0 * 512 ≤ (i 0).val ∧ (i 0).val < win0_19.index ⟨_, ht⟩ 0 * 512 + 512
    rw [(idx19 ⟨_, ht⟩).1]
    show (32 * ((i 0).val / 512) + 4 * ((i 1).val / 256) + 3) / 32 * 512 ≤ (i 0).val ∧ (i 0).val < (32 * ((i 0).val / 512) + 4 * ((i 1).val / 256) + 3) / 32 * 512 + 512
    omega
  | ⟨1, _⟩ =>
    show win0_19.index ⟨_, ht⟩ 1 * 256 ≤ (i 1).val ∧ (i 1).val < win0_19.index ⟨_, ht⟩ 1 * 256 + 256
    rw [(idx19 ⟨_, ht⟩).2]
    show (32 * ((i 0).val / 512) + 4 * ((i 1).val / 256) + 3) / 4 % 8 * 256 ≤ (i 1).val ∧ (i 1).val < (32 * ((i 0).val / 512) + 4 * ((i 1).val / 256) + 3) / 4 % 8 * 256 + 256
    omega

theorem cover20 (i : S8192x2048.Idx) : ∃ t : Fin cfg0.N, (cfg0.win 20).flush t = true ∧ i ∈ ((cfg0.win 20).blk t).view.set := by
  have hi0 : (i 0).val < 8192 := (i 0).isLt
  have hi1 : (i 1).val < 2048 := (i 1).isLt
  have ht : 32 * ((i 0).val / 512) + 4 * ((i 1).val / 256) + 3 < cfg0.N := lt_of_lt_of_eq (by omega) N_0.symm
  refine ⟨⟨32 * ((i 0).val / 512) + 4 * ((i 1).val / 256) + 3, ht⟩, (flush20_iff _).mpr (by show (32 * ((i 0).val / 512) + 4 * ((i 1).val / 256) + 3) % 4 = 3; omega), ?_⟩
  rw [mem_blk20]
  intro a
  match a with
  | ⟨0, _⟩ =>
    show win0_20.index ⟨_, ht⟩ 0 * 512 ≤ (i 0).val ∧ (i 0).val < win0_20.index ⟨_, ht⟩ 0 * 512 + 512
    rw [(idx20 ⟨_, ht⟩).1]
    show (32 * ((i 0).val / 512) + 4 * ((i 1).val / 256) + 3) / 32 * 512 ≤ (i 0).val ∧ (i 0).val < (32 * ((i 0).val / 512) + 4 * ((i 1).val / 256) + 3) / 32 * 512 + 512
    omega
  | ⟨1, _⟩ =>
    show win0_20.index ⟨_, ht⟩ 1 * 256 ≤ (i 1).val ∧ (i 1).val < win0_20.index ⟨_, ht⟩ 1 * 256 + 256
    rw [(idx20 ⟨_, ht⟩).2]
    show (32 * ((i 0).val / 512) + 4 * ((i 1).val / 256) + 3) / 4 % 8 * 256 ≤ (i 1).val ∧ (i 1).val < (32 * ((i 0).val / 512) + 4 * ((i 1).val / 256) + 3) / 4 % 8 * 256 + 256
    omega

/-- After the run the hidden-state array is the specification's. -/
theorem final19 (c : Dev nD) : (dats m 0 c).arrAt 19 cfg0.N = hiddenArr m c :=
  (dats m 0 c).arrAt_eq_of_cover 19 (hiddenArr m c) (fun t hf => flushed19_eq m c t hf) cover19

/-- After the run the cell-state array is the specification's. -/
theorem final20 (c : Dev nD) : (dats m 0 c).arrAt 20 cfg0.N = cellArr m c :=
  (dats m 0 c).arrAt_eq_of_cover 20 (cellArr m c) (fun t hf => flushed20_eq m c t hf) cover20

/-! ## The run, read -/

/-- Every weakly fair execution of the idealized kernel ends with the two result arrays at the specification's new
    hidden and cell states of the arguments, and the arguments as they were. -/
theorem run : θ_run defs (onTc (τ := τ) (main (F := Ideal))) ⟨m, fun _ => 0, ρ⟩ fun r => ∀ c : Dev nD,
      r.2.mem ((c : Thread nD τ).loc main_v18_0) = hiddenArr m c
      ∧ r.2.mem ((c : Thread nD τ).loc main_v18_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final19 m c), (h c).2.1.trans (final20 m c), (h c).2.2⟩)
    (run_blocks m ρ)

end Cert.KernelIdeal.CellValue

end
-- ==== Proof.RefIs.lean ====
/-
  The reference's two results are the specification's arrays.

  The reference forms the packed pre-activations `x·W + bw + h·U + bu` for all 8192 columns at once, cuts out the four
  gates' 2048 columns, passes three of them through `1 / (1 + e^(-·))` and the fourth through tanh, and combines them
  with the old cell state. Entry by entry that is the specification: the quotient spelled with negate, exponential, add
  and divide is the logistic function on every extended real, and the word for `1.0` is the number one.
-/
import proofs.«158810_j39350490366667_1_alg».proof.Proof.Gen.ReferenceIdeal.Read
import proofs.«158810_j39350490366667_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Lstm

variable (x0 x1 x2 : (⟨S8192x2048, .f32⟩ : BufTy).Contents (Elt Ideal))
  (x3 x5 : (⟨S2048x8192, .f32⟩ : BufTy).Contents (Elt Ideal)) (x4 x6 : (⟨S8192, .f32⟩ : BufTy).Contents (Elt Ideal))

/-- The packed pre-activations at row `b`, packed column `j`. -/
theorem gates_apply (b : Fin 8192) (j : Fin 8192) :
    val_main_v8 (F := Ideal) x0 x1 x3 x4 x5 x6 (ix2 b j)
      = (((∑ k : Fin 2048, x0 (ix2 b k) * x3 (ix2 k j)) + x4 (ix1 j)) + ∑ k : Fin 2048, x1 (ix2 b k) * x5 (ix2 k j)) + x6 (ix1 j) := by
  have el0 : ∀ k, lidx_main_v0 (ix2 b j) k = ix2 b k := fun k => funext fun a => Fin.ext (by
    match a with | ⟨0, _⟩ => rfl | ⟨1, _⟩ => rfl)
  have er0 : ∀ k, ridx_main_v0 (ix2 b j) k = ix2 k j := fun k => funext fun a => Fin.ext (by
    match a with | ⟨0, _⟩ => rfl | ⟨1, _⟩ => rfl)
  have el4 : ∀ k, lidx_main_v4 (ix2 b j) k = ix2 b k := fun k => funext fun a => Fin.ext (by
    match a with | ⟨0, _⟩ => rfl | ⟨1, _⟩ => rfl)
  have er4 : ∀ k, ridx_main_v4 (ix2 b j) k = ix2 k j := fun k => funext fun a => Fin.ext (by
    match a with | ⟨0, _⟩ => rfl | ⟨1, _⟩ => rfl)
  have e1 : idx_main_v1 (idx_main_v2 (ix2 b j)) = ix1 j := funext fun a => Fin.ext (by
    match a with | ⟨0, _⟩ => rfl)
  have e6 : idx_main_v6 (idx_main_v7 (ix2 b j)) = ix1 j := funext fun a => Fin.ext (by
    match a with | ⟨0, _⟩ => rfl)
  rw [val_main_v8_apply, val_main_v5_apply, val_main_v3_apply, val_main_v0_apply, val_main_v2_apply, val_main_v1_apply,
    val_main_v4_apply, val_main_v7_apply, val_main_v6_apply, e1, e6]
  simp only [el0, er0, el4, er4]
  rfl

/-- Gate `g`'s column `n` of the packed pre-activations is the specification's pre-activation. -/
theorem gates_col (g : Fin 4) (b : Fin 8192) (n : Fin 2048) :
    val_main_v8 (F := Ideal) x0 x1 x3 x4 x5 x6 (ix2 b (col g n)) = pre x0 x1 x3 x5 x4 x6 g b n :=
  gates_apply x0 x1 x3 x5 x4 x6 b (col g n)

theorem idx9 (b : Fin 8192) (n : Fin 2048) : idx_main_v9 (ix2 b n) = ix2 b (col 0 n) := funext fun a => Fin.ext (by
  match a with
  | ⟨0, _⟩ => rfl
  | ⟨1, _⟩ => show n.val = 2048 * 0 + n.val; omega)
theorem idx10 (b : Fin 8192) (n : Fin 2048) : idx_main_v10 (ix2 b n) = ix2 b (col 1 n) := funext fun a => Fin.ext (by
  match a with
  | ⟨0, _⟩ => rfl
  | ⟨1, _⟩ => show 2048 + n.val = 2048 * 1 + n.val; omega)
theorem idx11 (b : Fin 8192) (n : Fin 2048) : idx_main_v11 (ix2 b n) = ix2 b (col 2 n) := funext fun a => Fin.ext (by
  match a with
  | ⟨0, _⟩ => rfl
  | ⟨1, _⟩ => show 4096 + n.val = 2048 * 2 + n.val; omega)
theorem idx12 (b : Fin 8192) (n : Fin 2048) : idx_main_v12 (ix2 b n) = ix2 b (col 3 n) := funext fun a => Fin.ext (by
  match a with
  | ⟨0, _⟩ => rfl
  | ⟨1, _⟩ => show 6144 + n.val = 2048 * 3 + n.val; omega)

/-- `1 / (1 + e^(-v))`, spelled in the host's operations with the word for `1.0`, is the logistic function. -/
theorem sigmoid_eq (v : EReal) :
    FloatOps.hostDivf (F := Ideal) (φ := .f32) (FloatOps.ofBits .f32 0x3F800000#32)
      (FloatOps.addf (FloatOps.ofBits .f32 0x3F800000#32) (FloatOps.hostUnary .exp (FloatOps.hostNegf v))) = Ideal.logistic v := by
  rw [Ideal.ofBits_def, Ideal.ofBits_one_f32]
  rfl

/-- The input gate. -/
theorem gate_i (b : Fin 8192) (n : Fin 2048) :
    val_main_v18 (F := Ideal) x0 x1 x3 x4 x5 x6 (ix2 b n) = Ideal.logistic (pre x0 x1 x3 x5 x4 x6 0 b n) := by
  rw [val_main_v18_apply, val_main_v17_apply, val_main_cst_0_apply, val_main_v16_apply, val_main_v15_apply, val_main_cst_apply,
    val_main_v14_apply, val_main_v13_apply, val_main_v9_apply, idx9, gates_col]
  exact sigmoid_eq _

/-- The forget gate. -/
theorem gate_f (b : Fin 8192) (n : Fin 2048) :
    val_main_v24 (F := Ideal) x0 x1 x3 x4 x5 x6 (ix2 b n) = Ideal.logistic (pre x0 x1 x3 x5 x4 x6 1 b n) := by
  rw [val_main_v24_apply, val_main_v23_apply, val_main_cst_2_apply, val_main_v22_apply, val_main_v21_apply, val_main_cst_1_apply,
    val_main_v20_apply, val_main_v19_apply, val_main_v10_apply, idx10, gates_col]
  exact sigmoid_eq _

/-- The output gate. -/
theorem gate_o (b : Fin 8192) (n : Fin 2048) :
    val_main_v30 (F := Ideal) x0 x1 x3 x4 x5 x6 (ix2 b n) = Ideal.logistic (pre x0 x1 x3 x5 x4 x6 2 b n) := by
  rw [val_main_v30_apply, val_main_v29_apply, val_main_cst_4_apply, val_main_v28_apply, val_main_v27_apply, val_main_cst_3_apply,
    val_main_v26_apply, val_main_v25_apply, val_main_v11_apply, idx11, gates_col]
  exact sigmoid_eq _

/-- The candidate gate. -/
theorem gate_g (b : Fin 8192) (n : Fin 2048) :
    val_main_v31 (F := Ideal) x0 x1 x3 x4 x5 x6 (ix2 b n) = Ideal.tanh (pre x0 x1 x3 x5 x4 x6 3 b n) := by
  rw [val_main_v31_apply, val_main_v12_apply, idx12, gates_col]
  rfl

/-- The reference's new cell state is the specification's. -/
theorem cell_eq : val_main_v34 (F := Ideal) x0 x1 x2 x3 x4 x5 x6 = Gc x0 x1 x2 x3 x5 x4 x6 := by
  funext i
  obtain ⟨b, n, rfl⟩ : ∃ (b : Fin 8192) (n : Fin 2048), i = ix2 b n := ⟨i 0, i 1, eq_ix2 i⟩
  rw [Gc_ix2, val_main_v34_apply, val_main_v32_apply, val_main_v33_apply, gate_f, gate_i, gate_g]
  rfl

/-- The reference's new hidden state is the specification's. -/
theorem hidden_eq : val_main_v36 (F := Ideal) x0 x1 x2 x3 x4 x5 x6 = Gh x0 x1 x2 x3 x5 x4 x6 := by
  funext i
  obtain ⟨b, n, rfl⟩ : ∃ (b : Fin 8192) (n : Fin 2048), i = ix2 b n := ⟨i 0, i 1, eq_ix2 i⟩
  rw [Gh_ix2, val_main_v36_apply, val_main_v35_apply, gate_o, congrFun (cell_eq x0 x1 x2 x3 x5 x4 x6) (ix2 b n), Gc_ix2]
  rfl

end Cert.ReferenceIdeal.RefValue

end
-- ==== Proof.lean ====
/-
  An LSTM cell in one fused kernel against the same cell written with two large matrix products.

  Both programs compute, for each of 8192 rows and 2048 hidden columns, four gate pre-activations
  `x·W + bw + h·U + bu` (one per gate, read from four column groups of the packed weights and biases), pass three of
  them through the logistic function and the fourth through tanh, and form the new cell state
  `c' = σ(f)·c + σ(i)·tanh(g)` and the new hidden state `h' = σ(o)·tanh(c')`.

  They differ only in how the pre-activation's sum is grouped. The reference adds the input product, the input bias,
  the hidden product and the hidden bias in that order over the whole contracted axis. The kernel cuts the contracted
  axis into four stretches of 512, adds each stretch's input and hidden partial products into an accumulator that starts
  at zero, and adds the two biases at the last stretch; it also narrows its operands to bf16 before each product, which
  over the extended reals changes nothing. Addition of extended reals is commutative and associative, so the two
  groupings agree everywhere, infinite entries included, and the precondition is never used. The logistic function the
  kernel applies is the reference's `1 / (1 + e^(-v))` on every extended real.

  So both result arrays are the specification's `Gh` and `Gc` of the seven arguments: the kernel's by following the
  four accumulators across a tile's four grid points and tiling the result arrays with the blocks written back at the
  128 last points; the reference's by reading its operations one at a time. The two word-level and idealized kernel
  frames are the generated frame certificates; the reference's frame is its generated run with the results dropped; the
  idealization rewrote nothing, so there is nothing to preserve.
-/
import proofs.«158810_j39350490366667_1_alg».proof.Defs
import proofs.«158810_j39350490366667_1_alg».proof.Proof.Gen.Kernel
import proofs.«158810_j39350490366667_1_alg».proof.Proof.Gen.KernelIdeal
import proofs.«158810_j39350490366667_1_alg».proof.Proof.Gen.ReferenceIdeal
import proofs.«158810_j39350490366667_1_alg».proof.Proof.Gen.Pre_finite_inputs
import proofs.«158810_j39350490366667_1_alg».proof.Proof.KernelP.Frame
import proofs.«158810_j39350490366667_1_alg».proof.Proof.KernelIdealP.Frame
import proofs.«158810_j39350490366667_1_alg».proof.Proof.CellValue
import proofs.«158810_j39350490366667_1_alg».proof.Proof.RefIs
import Idealize.ShloMosaic.Adequacy
import Idealize.ShloMosaic.Init

noncomputable section

namespace Cert.Proof

open Idealize.ShloMosaic Idealize.SL.Sem

/-- The word-level kernel runs to the end and leaves its arguments alone. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- So does the reference: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the seven arguments, the idealized kernel and the idealized reference both end with the
    specification's new hidden state and new cell state of those arguments. -/
theorem algebraic : Cert.algebraic_KernelIdeal_ReferenceIdeal := by
  intro m ρ m' ρ' _ hagree
  refine ⟨fun c => Cert.KernelIdeal.CellValue.hiddenArr m c, fun c => Cert.KernelIdeal.CellValue.cellArr m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v36_eq, Cert.ReferenceIdeal.RefValue.hidden_eq, a0, a1, a2, a3, a4, a5, a6]
  · obtain ⟨a0, a1, a2, a3, a4, a5, a6⟩ := hagree c
    rw [Cert.ReferenceIdeal.Read.val_main_v34_eq, Cert.ReferenceIdeal.RefValue.cell_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
